-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x16 : Shape := ⟨2, ![500000, 16]⟩
abbrev S500000x4 : Shape := ⟨2, ![500000, 4]⟩
abbrev S16x32 : Shape := ⟨2, ![16, 32]⟩
abbrev S32x32 : Shape := ⟨2, ![32, 32]⟩
abbrev S32x64 : Shape := ⟨2, ![32, 64]⟩
abbrev S64x128 : Shape := ⟨2, ![64, 128]⟩
abbrev S64x64 : Shape := ⟨2, ![64, 64]⟩
abbrev S128x128 : Shape := ⟨2, ![128, 128]⟩
abbrev S64x32 : Shape := ⟨2, ![64, 32]⟩
abbrev S128x64 : Shape := ⟨2, ![128, 64]⟩
abbrev S256x128 : Shape := ⟨2, ![256, 128]⟩
abbrev S_ : Shape := ⟨0, ![]⟩

class Facts : Prop where
  bcast_S_S500000x16 : S_.BroadcastsInDim S500000x16 (![] : Fin 0 → Fin S500000x16.rank)
  reducesTo_S500000x16_S_d0_1 : S500000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S64x32 : S_.BroadcastsInDim S64x32 (![] : Fin 0 → Fin S64x32.rank)
  reducesTo_S64x32_S_d0_1 : S64x32.ReducesTo [0, 1] S_
  bcast_S_S128x64 : S_.BroadcastsInDim S128x64 (![] : Fin 0 → Fin S128x64.rank)
  reducesTo_S128x64_S_d0_1 : S128x64.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32x32 .f32) (main_arg13 : FVec F S64x32 .f32) (main_arg14 : FVec F S128x64 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S32x32 .f32 := Host.absf main_arg12
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S64x32 .f32 := Host.absf main_arg13
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_v63 main_v67

def fn_part2 {F : FTy → Type} [FloatOps F] (main_arg8 : FVec F S128x128 .f32) (main_arg9 : FVec F S64x32 .f32) (main_arg10 : FVec F S128x64 .f32) (main_arg11 : FVec F S256x128 .f32) (main_arg12 : FVec F S32x32 .f32) (main_arg13 : FVec F S64x32 .f32) (main_arg14 : FVec F S128x64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S64x128 .f32) (main_arg6 : FVec F S32x32 .f32) (main_arg7 : FVec F S64x64 .f32) (main_arg8 : FVec F S128x128 .f32) (main_arg9 : FVec F S64x32 .f32) (main_arg10 : FVec F S128x64 .f32) (main_arg11 : FVec F S256x128 .f32) (main_arg12 : FVec F S32x32 .f32) (main_arg13 : FVec F S64x32 .f32) (main_arg14 : FVec F S128x64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S500000x16 .f32) (main_arg1 : IVec S500000x4 32) (main_arg2 : FVec F S16x32 .f32) (main_arg3 : FVec F S32x32 .f32) (main_arg4 : FVec F S32x64 .f32) (main_arg5 : FVec F S64x128 .f32) (main_arg6 : FVec F S32x32 .f32) (main_arg7 : FVec F S64x64 .f32) (main_arg8 : FVec F S128x128 .f32) (main_arg9 : FVec F S64x32 .f32) (main_arg10 : FVec F S128x64 .f32) (main_arg11 : FVec F S256x128 .f32) (main_arg12 : FVec F S32x32 .f32) (main_arg13 : FVec F S64x32 .f32) (main_arg14 : FVec F S128x64 .f32) : IVec S_ 1 :=
  let main_v0 : FVec F S500000x16 .f32 := Host.absf main_arg0
  let main_cst : FVec F S_ .f32 := constant S_ .f32 0x7F800000#32
  let main_v1 : FVec F S500000x16 .f32 := broadcastInDim S500000x16 ![] bcast_S_S500000x16 main_cst
  let main_v2 : IVec S500000x16 1 := cmpf .olt main_v0 main_v1
  let main_c : IVec S_ 1 := constantI S_ 1 1#1
  let main_v3 : IVec S_ 1 := (fun x v => Host.reduce IntOp.andi x v reducesTo_S500000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S500000x16 : Shape := ⟨2, ![500000, 16]⟩
abbrev S500000x4 : Shape := ⟨2, ![500000, 4]⟩
abbrev S16x32 : Shape := ⟨2, ![16, 32]⟩
abbrev S32x32 : Shape := ⟨2, ![32, 32]⟩
abbrev S32x64 : Shape := ⟨2, ![32, 64]⟩
abbrev S64x128 : Shape := ⟨2, ![64, 128]⟩
abbrev S64x64 : Shape := ⟨2, ![64, 64]⟩
abbrev S128x128 : Shape := ⟨2, ![128, 128]⟩
abbrev S64x32 : Shape := ⟨2, ![64, 32]⟩
abbrev S128x64 : Shape := ⟨2, ![128, 64]⟩
abbrev S256x128 : Shape := ⟨2, ![256, 128]⟩
abbrev S_ : Shape := ⟨0, ![]⟩
abbrev S32x2x32 : Shape := ⟨3, ![32, 2, 32]⟩
abbrev S64x2x64 : Shape := ⟨3, ![64, 2, 64]⟩
abbrev S128x2x128 : Shape := ⟨3, ![128, 2, 128]⟩
abbrev S500000x32 : Shape := ⟨2, ![500000, 32]⟩
abbrev S2000x16 : Shape := ⟨2, ![2000, 16]⟩
abbrev S2000x32 : Shape := ⟨2, ![2000, 32]⟩
abbrev S2000x64 : Shape := ⟨2, ![2000, 64]⟩
abbrev S2000x128 : Shape := ⟨2, ![2000, 128]⟩
abbrev S2000x256 : Shape := ⟨2, ![2000, 256]⟩

abbrev nBuf : Space → Nat
  | .hbm => 43
  | .vmem => 20
  | .smem => 0
  | _ => 0

abbrev bufTy : (tb : Table) → Fin (tcTables nBuf tb) → BufTy
  | .hbm, ⟨0, _⟩ => ⟨S500000x16, .f32⟩
  | .hbm, ⟨1, _⟩ => ⟨S500000x4, .i32⟩
  | .hbm, ⟨2, _⟩ => ⟨S16x32, .f32⟩
  | .hbm, ⟨3, _⟩ => ⟨S32x32, .f32⟩
  | .hbm, ⟨4, _⟩ => ⟨S32x64, .f32⟩
  | .hbm, ⟨5, _⟩ => ⟨S64x128, .f32⟩
  | .hbm, ⟨6, _⟩ => ⟨S32x32, .f32⟩
  | .hbm, ⟨7, _⟩ => ⟨S64x64, .f32⟩
  | .hbm, ⟨8, _⟩ => ⟨S128x128, .f32⟩
  | .hbm, ⟨9, _⟩ => ⟨S64x32, .f32⟩
  | .hbm, ⟨10, _⟩ => ⟨S128x64, .f32⟩
  | .hbm, ⟨11, _⟩ => ⟨S256x128, .f32⟩
  | .hbm, ⟨12, _⟩ => ⟨S32x32, .f32⟩
  | .hbm, ⟨13, _⟩ => ⟨S64x32, .f32⟩
  | .hbm, ⟨14, _⟩ => ⟨S128x64, .f32⟩
  | .hbm, ⟨15, _⟩ => ⟨S32x32, .i32⟩
  | .hbm, ⟨16, _⟩ => ⟨S32x32, .i32⟩
  | .hbm, ⟨17, _⟩ => ⟨S_, .i32⟩
  | .hbm, ⟨18, _⟩ => ⟨S32x32, .i32⟩
  | .hbm, ⟨19, _⟩ => ⟨S32x32, .i32⟩
  | .hbm, ⟨20, _⟩ => ⟨S32x32, .i1⟩
  | .hbm, ⟨21, _⟩ => ⟨S32x32, .f32⟩
  | .hbm, ⟨22, _⟩ => ⟨S32x2x32, .f32⟩
  | .hbm, ⟨23, _⟩ => ⟨S64x32, .f32⟩
  | .hbm, ⟨24, _⟩ => ⟨S64x64, .i32⟩
  | .hbm, ⟨25, _⟩ => ⟨S64x64, .i32⟩
  | .hbm, ⟨26, _⟩ => ⟨S_, .i32⟩
  | .hbm, ⟨27, _⟩ => ⟨S64x64, .i32⟩
  | .hbm, ⟨28, _⟩ => ⟨S64x64, .i32⟩
  | .hbm, ⟨29, _⟩ => ⟨S64x64, .i1⟩
  | .hbm, ⟨30, _⟩ => ⟨S64x64, .f32⟩
  | .hbm, ⟨31, _⟩ => ⟨S64x2x64, .f32⟩
  | .hbm, ⟨32, _⟩ => ⟨S128x64, .f32⟩
  | .hbm, ⟨33, _⟩ => ⟨S128x128, .i32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S128x128, .f32⟩
  | .hbm, ⟨40, _⟩ => ⟨S128x2x128, .f32⟩
  | .hbm, ⟨41, _⟩ => ⟨S256x128, .f32⟩
  | .hbm, ⟨42, _⟩ => ⟨S500000x32, .f32⟩
  | .local _ .vmem, ⟨0, _⟩ => ⟨S2000x16, .f32⟩
  | .local _ .vmem, ⟨1, _⟩ => ⟨S2000x16, .f32⟩
  | .local _ .vmem, ⟨2, _⟩ => ⟨S16x32, .f32⟩
  | .local _ .vmem, ⟨3, _⟩ => ⟨S32x32, .f32⟩
  | .local _ .vmem, ⟨4, _⟩ => ⟨S32x64, .f32⟩
  | .local _ .vmem, ⟨5, _⟩ => ⟨S64x128, .f32⟩
  | .local _ .vmem, ⟨6, _⟩ => ⟨S32x32, .f32⟩
  | .local _ .vmem, ⟨7, _⟩ => ⟨S64x64, .f32⟩
  | .local _ .vmem, ⟨8, _⟩ => ⟨S128x128, .f32⟩
  | .local _ .vmem, ⟨9, _⟩ => ⟨S64x32, .f32⟩
  | .local _ .vmem, ⟨10, _⟩ => ⟨S128x64, .f32⟩
  | .local _ .vmem, ⟨11, _⟩ => ⟨S256x128, .f32⟩
  | .local _ .vmem, ⟨12, _⟩ => ⟨S32x32, .f32⟩
  | .local _ .vmem, ⟨13, _⟩ => ⟨S64x32, .f32⟩
  | .local _ .vmem, ⟨14, _⟩ => ⟨S128x64, .f32⟩
  | .local _ .vmem, ⟨15, _⟩ => ⟨S64x32, .f32⟩
  | .local _ .vmem, ⟨16, _⟩ => ⟨S128x64, .f32⟩
  | .local _ .vmem, ⟨17, _⟩ => ⟨S256x128, .f32⟩
  | .local _ .vmem, ⟨18, _⟩ => ⟨S2000x32, .f32⟩
  | .local _ .vmem, ⟨19, _⟩ => ⟨S2000x32, .f32⟩
  | _, _ => ⟨S500000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2000x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S32x32 : S_.BroadcastsInDim S32x32 (![] : Fin 0 → Fin S32x32.rank)
  bcast_S32x32_S32x2x32_0_2 : S32x32.BroadcastsInDim S32x2x32 (![0, 2] : Fin 2 → Fin S32x2x32.rank)
  shapeCasts_S32x2x32_S64x32 : S32x2x32.ShapeCasts S64x32
  bcast_S_S64x64 : S_.BroadcastsInDim S64x64 (![] : Fin 0 → Fin S64x64.rank)
  bcast_S64x64_S64x2x64_0_2 : S64x64.BroadcastsInDim S64x2x64 (![0, 2] : Fin 2 → Fin S64x2x64.rank)
  shapeCasts_S64x2x64_S128x64 : S64x2x64.ShapeCasts S128x64
  bcast_S_S128x128 : S_.BroadcastsInDim S128x128 (![] : Fin 0 → Fin S128x128.rank)
  bcast_S128x128_S128x2x128_0_2 : S128x128.BroadcastsInDim S128x2x128 (![0, 2] : Fin 2 → Fin S128x2x128.rank)
  shapeCasts_S128x2x128_S256x128 : S128x2x128.ShapeCasts S256x128
  inb_S2000x16_S2000x16_0_0 : ∀ a, (![0, 0] : Fin 2 → Nat) a + S2000x16.size a ≤ S2000x16.size a
  h_S2000x16 : 0 < S2000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S32x32_S32x32_0_0 : ∀ a, (![0, 0] : Fin 2 → Nat) a + S32x32.size a ≤ S32x32.size a
  h_S32x32 : 0 < S32x32.numel
  inb_S32x64_S32x64_0_0 : ∀ a, (![0, 0] : Fin 2 → Nat) a + S32x64.size a ≤ S32x64.size a
  h_S32x64 : 0 < S32x64.numel
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x64_S128x64_0_0 : ∀ a, (![0, 0] : Fin 2 → Nat) a + S128x64.size a ≤ S128x64.size a
  h_S128x64 : 0 < S128x64.numel
  inb_S64x64_S64x64_0_0 : ∀ a, (![0, 0] : Fin 2 → Nat) a + S64x64.size a ≤ S64x64.size a
  h_S64x64 : 0 < S64x64.numel
  concatenates_S2000x64_S2000x64_S2000x128_d1 : Shape.Concatenates [S2000x64, S2000x64] S2000x128 1
  shapeCasts_S128x64_S128x64 : S128x64.ShapeCasts S128x64
  inb_S64x32_S64x32_0_0 : ∀ a, (![0, 0] : Fin 2 → Nat) a + S64x32.size a ≤ S64x32.size a
  h_S64x32 : 0 < S64x32.numel
  concatenates_S2000x32_S2000x32_S2000x64_d1 : Shape.Concatenates [S2000x32, S2000x32] S2000x64 1
  shapeCasts_S64x32_S64x32 : S64x32.ShapeCasts S64x32
  inb_S2000x32_S2000x32_0_0 : ∀ a, (![0, 0] : Fin 2 → Nat) a + S2000x32.size a ≤ S2000x32.size a
  h_S2000x32 : 0 < S2000x32.numel
  dot_S2000x16_S16x32_S2000x32_1_0_0_1_n_n_wf : DotDims.WF S2000x16 S16x32 S2000x32 [1] [0] [0] [1] [] []
  dot_S2000x32_S32x32_S2000x32_1_0_0_1_n_n_wf : DotDims.WF S2000x32 S32x32 S2000x32 [1] [0] [0] [1] [] []
  dot_S2000x32_S32x64_S2000x64_1_0_0_1_n_n_wf : DotDims.WF S2000x32 S32x64 S2000x64 [1] [0] [0] [1] [] []
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S500000x16.size a
  hwx0_0 : ∀ i : grid0.Coords, EltTy.bits .f32 = 32 ∨ (Rect.block (s := S500000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x32.size a ≤ S64x32.size a
  hwx0_8 : ∀ i : grid0.Coords, EltTy.bits .f32 = 32 ∨ (Rect.block (s := S64x32) S64x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x32.size a ≤ S32x32.size a
  hwx0_11 : ∀ i : grid0.Coords, EltTy.bits .f32 = 32 ∨ (Rect.block (s := S32x32) S32x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x32.size a ≤ S64x32.size a
  hwx0_12 : ∀ i : grid0.Coords, EltTy.bits .f32 = 32 ∨ (Rect.block (s := S64x32) S64x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x64.size a ≤ S128x64.size a
  hwx0_13 : ∀ i : grid0.Coords, EltTy.bits .f32 = 32 ∨ (Rect.block (s := S128x64) S128x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x32.size a ≤ S64x32.size a
  hwx0_14 : ∀ i : grid0.Coords, EltTy.bits .f32 = 32 ∨ (Rect.block (s := S64x32) S64x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x64.size a ≤ S128x64.size a
  hwx0_15 : ∀ i : grid0.Coords, EltTy.bits .f32 = 32 ∨ (Rect.block (s := S128x64) S128x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x128.size a ≤ S256x128.size a
  hwx0_16 : ∀ i : grid0.Coords, EltTy.bits .f32 = 32 ∨ (Rect.block (s := S256x128) S256x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x32.size a ≤ S500000x32.size a
  hwx0_17 : ∀ i : grid0.Coords, EltTy.bits .f32 = 32 ∨ (Rect.block (s := S500000x32) S2000x32.size (cc0_transform_17 i) (hinb0_17 i)).WholeWords (EltTy.packing .f32)

variable [Facts₀]

def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S32x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S64x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S128x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S64x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S128x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v23) S256x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v24) S2000x32.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S500000x16 : Shape := ⟨2, ![500000, 16]⟩
abbrev S500000x4 : Shape := ⟨2, ![500000, 4]⟩
abbrev S16x32 : Shape := ⟨2, ![16, 32]⟩
abbrev S32x32 : Shape := ⟨2, ![32, 32]⟩
abbrev S32x64 : Shape := ⟨2, ![32, 64]⟩
abbrev S64x128 : Shape := ⟨2, ![64, 128]⟩
abbrev S64x64 : Shape := ⟨2, ![64, 64]⟩
abbrev S128x128 : Shape := ⟨2, ![128, 128]⟩
abbrev S64x32 : Shape := ⟨2, ![64, 32]⟩
abbrev S128x64 : Shape := ⟨2, ![128, 64]⟩
abbrev S256x128 : Shape := ⟨2, ![256, 128]⟩
abbrev S500000x32 : Shape := ⟨2, ![500000, 32]⟩
abbrev S_ : Shape := ⟨0, ![]⟩
abbrev S500000x64 : Shape := ⟨2, ![500000, 64]⟩
abbrev S500000x128 : Shape := ⟨2, ![500000, 128]⟩
abbrev S500000x256 : Shape := ⟨2, ![500000, 256]⟩
abbrev S500000x128x2 : Shape := ⟨3, ![500000, 128, 2]⟩
abbrev S500000x64x2 : Shape := ⟨3, ![500000, 64, 2]⟩
abbrev S500000x32x2 : Shape := ⟨3, ![500000, 32, 2]⟩

abbrev nBuf : Space → Nat
  | .hbm => 82
  | .vmem => 0
  | .smem => 0
  | _ => 0

abbrev bufTy : (tb : Table) → Fin (tcTables nBuf tb) → BufTy
  | .hbm, ⟨0, _⟩ => ⟨S500000x16, .f32⟩
  | .hbm, ⟨1, _⟩ => ⟨S500000x4, .i32⟩
  | .hbm, ⟨2, _⟩ => ⟨S16x32, .f32⟩
  | .hbm, ⟨3, _⟩ => ⟨S32x32, .f32⟩
  | .hbm, ⟨4, _⟩ => ⟨S32x64, .f32⟩
  | .hbm, ⟨5, _⟩ => ⟨S64x128, .f32⟩
  | .hbm, ⟨6, _⟩ => ⟨S32x32, .f32⟩
  | .hbm, ⟨7, _⟩ => ⟨S64x64, .f32⟩
  | .hbm, ⟨8, _⟩ => ⟨S128x128, .f32⟩
  | .hbm, ⟨9, _⟩ => ⟨S64x32, .f32⟩
  | .hbm, ⟨10, _⟩ => ⟨S128x64, .f32⟩
  | .hbm, ⟨11, _⟩ => ⟨S256x128, .f32⟩
  | .hbm, ⟨12, _⟩ => ⟨S32x32, .f32⟩
  | .hbm, ⟨13, _⟩ => ⟨S64x32, .f32⟩
  | .hbm, ⟨14, _⟩ => ⟨S128x64, .f32⟩
  | .hbm, ⟨15, _⟩ => ⟨S500000x32, .f32⟩
  | .hbm, ⟨16, _⟩ => ⟨S_, .f32⟩
  | .hbm, ⟨17, _⟩ => ⟨S500000x32, .f32⟩
  | .hbm, ⟨18, _⟩ => ⟨S500000x32, .f32⟩
  | .hbm, ⟨19, _⟩ => ⟨S500000x32, .f32⟩
  | .hbm, ⟨20, _⟩ => ⟨S_, .f32⟩
  | .hbm, ⟨21, _⟩ => ⟨S500000x32, .f32⟩
  | .hbm, ⟨22, _⟩ => ⟨S500000x32, .f32⟩
  | .hbm, ⟨23, _⟩ => ⟨S500000x64, .f32⟩
  | .hbm, ⟨24, _⟩ => ⟨S_, .f32⟩
  | .hbm, ⟨25, _⟩ => ⟨S500000x64, .f32⟩
  | .hbm, ⟨26, _⟩ => ⟨S500000x64, .f32⟩
  | .hbm, ⟨27, _⟩ => ⟨S500000x128, .f32⟩
  | .hbm, ⟨28, _⟩ => ⟨S_, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S_, .f32⟩
  | .hbm, ⟨33, _⟩ => ⟨S500000x128, .f32⟩
  | .hbm, ⟨34, _⟩ => ⟨S500000x128, .f32⟩
  | .hbm, ⟨35, _⟩ => ⟨S500000x256, .f32⟩
  | .hbm, ⟨36, _⟩ => ⟨S500000x128, .f32⟩
  | .hbm, ⟨37, _⟩ => ⟨S_, .f32⟩
  | .hbm, ⟨38, _⟩ => ⟨S500000x128, .f32⟩
  | .hbm, ⟨39, _⟩ => ⟨S500000x128, .f32⟩
  | .hbm, ⟨40, _⟩ => ⟨S500000x128x2, .f32⟩
  | .hbm, ⟨41, _⟩ => ⟨S_, .f32⟩
  | .hbm, ⟨42, _⟩ => ⟨S500000x128, .f32⟩
  | .hbm, ⟨43, _⟩ => ⟨S500000x128, .f32⟩
  | .hbm, ⟨44, _⟩ => ⟨S500000x64, .f32⟩
  | .hbm, ⟨45, _⟩ => ⟨S_, .f32⟩
  | .hbm, ⟨46, _⟩ => ⟨S500000x64, .f32⟩
  | .hbm, ⟨47, _⟩ => ⟨S500000x64, .f32⟩
  | .hbm, ⟨48, _⟩ => ⟨S500000x64, .f32⟩
  | .hbm, ⟨49, _⟩ => ⟨S_, .f32⟩
  | .hbm, ⟨50, _⟩ => ⟨S500000x64, .f32⟩
  | .hbm, ⟨51, _⟩ => ⟨S500000x64, .f32⟩
  | .hbm, ⟨52, _⟩ => ⟨S500000x128, .f32⟩
  | .hbm, ⟨53, _⟩ => ⟨S500000x64, .f32⟩
  | .hbm, ⟨54, _⟩ => ⟨S_, .f32⟩
  | .hbm, ⟨55, _⟩ => ⟨S500000x64, .f32⟩
  | .hbm, ⟨56, _⟩ => ⟨S500000x64, .f32⟩
  | .hbm, ⟨57, _⟩ => ⟨S500000x64x2, .f32⟩
  | .hbm, ⟨58, _⟩ => ⟨S_, .f32⟩
  | .hbm, ⟨59, _⟩ => ⟨S500000x64, .f32⟩
  | .hbm, ⟨60, _⟩ => ⟨S500000x64, .f32⟩
  | .hbm, ⟨61, _⟩ => ⟨S500000x32, .f32⟩
  | .hbm, ⟨62, _⟩ => ⟨S_, .f32⟩
  | .hbm, ⟨63, _⟩ => ⟨S500000x32, .f32⟩
  | .hbm, ⟨64, _⟩ => ⟨S500000x32, .f32⟩
  | .hbm, ⟨65, _⟩ => ⟨S500000x32, .f32⟩
  | .hbm, ⟨66, _⟩ => ⟨S_, .f32⟩
  | .hbm, ⟨67, _⟩ => ⟨S500000x32, .f32⟩
  | .hbm, ⟨68, _⟩ => ⟨S500000x32, .f32⟩
  | .hbm, ⟨69, _⟩ => ⟨S500000x64, .f32⟩
  | .hbm, ⟨70, _⟩ => ⟨S500000x32, .f32⟩
  | .hbm, ⟨71, _⟩ => ⟨S_, .f32⟩
  | .hbm, ⟨72, _⟩ => ⟨S500000x32, .f32⟩
  | .hbm, ⟨73, _⟩ => ⟨S500000x32, .f32⟩
  | .hbm, ⟨74, _⟩ => ⟨S500000x32x2, .f32⟩
  | .hbm, ⟨75, _⟩ => ⟨S_, .f32⟩
  | .hbm, ⟨76, _⟩ => ⟨S500000x32, .f32⟩
  | .hbm, ⟨77, _⟩ => ⟨S500000x32, .f32⟩
  | .hbm, ⟨78, _⟩ => ⟨S500000x32, .f32⟩
  | .hbm, ⟨79, _⟩ => ⟨S_, .f32⟩
  | .hbm, ⟨80, _⟩ => ⟨S500000x32, .f32⟩
  | .hbm, ⟨81, _⟩ => ⟨S500000x32, .f32⟩
  | _, _ => ⟨S500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_call0_cst : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_call1_cst : Ref sig .tc := ⟨.hbm, 20, rfl⟩
abbrev main_call1_v0 : Ref sig .tc := ⟨.hbm, 21, rfl⟩
abbrev main_v3 : Ref sig .tc := ⟨.hbm, 22, rfl⟩
abbrev main_v4 : Ref sig .tc := ⟨.hbm, 23, rfl⟩
abbrev main_call2_cst : Ref sig .tc := ⟨.hbm, 24, rfl⟩
abbrev main_call2_v0 : Ref sig .tc := ⟨.hbm, 25, rfl⟩
abbrev main_v5 : Ref sig .tc := ⟨.hbm, 26, rfl⟩
abbrev main_v6 : Ref sig .tc := ⟨.hbm, 27, rfl⟩
abbrev main_call3_cst : Ref sig .tc := ⟨.hbm, 28, rfl⟩
abbrev main_call3_v0 : Ref sig .tc := ⟨.hbm, 29, rfl⟩
abbrev main_v7 : Ref sig .tc := ⟨.hbm, 30, rfl⟩
abbrev main_v8 : Ref sig .tc := ⟨.hbm, 31, rfl⟩
abbrev main_call4_cst : Ref sig .tc := ⟨.hbm, 32, rfl⟩
abbrev main_call4_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call5_cst : Ref sig .tc := ⟨.hbm, 37, rfl⟩
abbrev main_call5_v0 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_call6_cst : Ref sig .tc := ⟨.hbm, 45, rfl⟩
abbrev main_call6_v0 : Ref sig .tc := ⟨.hbm, 46, rfl⟩
abbrev main_v17 : Ref sig .tc := ⟨.hbm, 47, rfl⟩
abbrev main_v18 : Ref sig .tc := ⟨.hbm, 48, rfl⟩
abbrev main_call7_cst : Ref sig .tc := ⟨.hbm, 49, rfl⟩
abbrev main_call7_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_call8_cst : Ref sig .tc := ⟨.hbm, 54, rfl⟩
abbrev main_call8_v0 : Ref sig .tc := ⟨.hbm, 55, rfl⟩
abbrev main_v22 : Ref sig .tc := ⟨.hbm, 56, rfl⟩
abbrev main_v23 : Ref sig .tc := ⟨.hbm, 57, rfl⟩
abbrev main_cst_0 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_call9_cst : Ref sig .tc := ⟨.hbm, 62, rfl⟩
abbrev main_call9_v0 : Ref sig .tc := ⟨.hbm, 63, rfl⟩
abbrev main_v27 : Ref sig .tc := ⟨.hbm, 64, rfl⟩
abbrev main_v28 : Ref sig .tc := ⟨.hbm, 65, rfl⟩
abbrev main_call10_cst : Ref sig .tc := ⟨.hbm, 66, rfl⟩
abbrev main_call10_v0 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_call11_cst : Ref sig .tc := ⟨.hbm, 71, rfl⟩
abbrev main_call11_v0 : Ref sig .tc := ⟨.hbm, 72, rfl⟩
abbrev main_v32 : Ref sig .tc := ⟨.hbm, 73, rfl⟩
abbrev main_v33 : Ref sig .tc := ⟨.hbm, 74, rfl⟩
abbrev main_cst_1 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_call12_cst : Ref sig .tc := ⟨.hbm, 79, rfl⟩
abbrev main_call12_v0 : Ref sig .tc := ⟨.hbm, 80, rfl⟩
abbrev main_v37 : Ref sig .tc := ⟨.hbm, 81, rfl⟩

abbrev nD : Nat := 1
abbrev τ : Topo := Topo.v7x

variable {F : FTy → Type} [FloatOps F]

class Facts₀ : Prop where
  bcast_S_S500000x32 : S_.BroadcastsInDim S500000x32 (![] : Fin 0 → Fin S500000x32.rank)
  bcast_S_S500000x64 : S_.BroadcastsInDim S500000x64 (![] : Fin 0 → Fin S500000x64.rank)
  bcast_S_S500000x128 : S_.BroadcastsInDim S500000x128 (![] : Fin 0 → Fin S500000x128.rank)
  concatenates_S500000x128_S500000x128_S500000x256_d1 : Shape.Concatenates [S500000x128, S500000x128] S500000x256 1
  shapeCasts_S500000x256_S500000x128x2 : S500000x256.ShapeCasts S500000x128x2
  reducesTo_S500000x128x2_S500000x128_d2 : S500000x128x2.ReducesTo [2] S500000x128
  h_S_ : 0 < S_.numel
  concatenates_S500000x64_S500000x64_S500000x128_d1 : Shape.Concatenates [S500000x64, S500000x64] S500000x128 1
  shapeCasts_S500000x128_S500000x64x2 : S500000x128.ShapeCasts S500000x64x2
  reducesTo_S500000x64x2_S500000x64_d2 : S500000x64x2.ReducesTo [2] S500000x64
  concatenates_S500000x32_S500000x32_S500000x64_d1 : Shape.Concatenates [S500000x32, S500000x32] S500000x64 1
  shapeCasts_S500000x64_S500000x32x2 : S500000x64.ShapeCasts S500000x32x2
  reducesTo_S500000x32x2_S500000x32_d2 : S500000x32x2.ReducesTo [2] S500000x32
  dot_S500000x16_S16x32_S500000x32_1_0_0_1_n_n_wf : DotDims.WF S500000x16 S16x32 S500000x32 [1] [0] [0] [1] [] []
  dot_S500000x32_S32x32_S500000x32_1_0_0_1_n_n_wf : DotDims.WF S500000x32 S32x32 S500000x32 [1] [0] [0] [1] [] []
  dot_S500000x32_S32x64_S500000x64_1_0_0_1_n_n_wf : DotDims.WF S500000x32 S32x64 S500000x64 [1] [0] [0] [1] [] []
  dot_S500000x64_S64x128_S500000x128_1_0_0_1_n_n_wf : DotDims.WF S500000x64 S64x128 S500000x128 [1] [0] [0] [1] [] []
  dot_S500000x128_S128x128_S500000x128_1_0_0_1_n_n_wf : DotDims.WF S500000x128 S128x128 S500000x128 [1] [0] [0] [1] [] []
  dot_S500000x256_S256x128_S500000x128_1_0_0_1_n_n_wf : DotDims.WF S500000x256 S256x128 S500000x128 [1] [0] [0] [1] [] []
  dot_S500000x128_S128x64_S500000x64_1_0_0_1_n_n_wf : DotDims.WF S500000x128 S128x64 S500000x64 [1] [0] [0] [1] [] []
  dot_S500000x64_S64x64_S500000x64_1_0_0_1_n_n_wf : DotDims.WF S500000x64 S64x64 S500000x64 [1] [0] [0] [1] [] []
  dot_S500000x64_S64x32_S500000x32_1_0_0_1_n_n_wf : DotDims.WF S500000x64 S64x32 S500000x32 [1] [0] [0] [1] [] []

variable [Facts₀]

def dot_S500000x16_S16x32_S500000x32_1_0_0_1_n_n : DotDims S500000x16 S16x32 S500000x32 where
  lhsContracting := [1]
  rhsContracting := [0]
  lhsNonContracting := [0]
  rhsNonContracting := [1]
  lhsBatch := []
  rhsBatch := []
  wf := dot_S500000x16_S16x32_S500000x32_1_0_0_1_n_n_wf
def dot_S500000x32_S32x32_S500000x32_1_0_0_1_n_n : DotDims S500000x32 S32x32 S500000x32 where
  lhsContracting := [1]
  rhsContracting := [0]
  lhsNonContracting := [0]
  rhsNonContracting := [1]
  lhsBatch := []
  rhsBatch := []
  wf := dot_S500000x32_S32x32_S500000x32_1_0_0_1_n_n_wf
def dot_S500000x32_S32x64_S500000x64_1_0_0_1_n_n : DotDims S500000x32 S32x64 S500000x64 where
  lhsContracting := [1]
  rhsContracting := [0]
  lhsNonContracting := [0]
  rhsNonContracting := [1]
  lhsBatch := []
  rhsBatch := []
  wf := dot_S500000x32_S32x64_S500000x64_1_0_0_1_n_n_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S500000x64_S64x32_S500000x32_1_0_0_1_n_n : DotDims S500000x64 S64x32 S500000x32 where
  lhsContracting := [1]
  rhsContracting := [0]
  lhsNonContracting := [0]
  rhsNonContracting := [1]
  lhsBatch := []
  rhsBatch := []
  wf := dot_S500000x64_S64x32_S500000x32_1_0_0_1_n_n_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.LibRows.lean ====
/-
  Arrays of rows, at the ideal values.

  Every array of the network is "rows by channels": an `M × C` array whose row `p` is the channel vector of one
  voxel. Each operation of the network acts on every row by itself: a product with a `K × N` weight matrix sends a
  row `x` to the row `q ↦ ∑ k, x k · W (k, q)`; a rectifier, a sum of two arrays and a join of two arrays along the
  channels act channel by channel. So the value of the whole network at entry `(p, q)` depends on row `p` of the
  input only, and it is the same function of that row however many rows the array has. This file names the
  operations on one row and reads each array operation at a row, once for all sizes.

  It also proves the one algebraic fact the network needs: multiplying a row of `2 C` channels by the `2 C × C`
  matrix of zeros and ones whose entry `(j, k)` is one exactly when `j / 2 = k` adds the channels in neighbouring
  pairs. On the extended reals `x · 0 = 0` and `x · 1 = x` hold for every `x`, infinite ones included, and a finite
  sum may be taken in any order, so nothing is asked of the entries.
-/
import Idealize.ShloMosaic.PureOps.Ideal.Laws
import Idealize.ShloMosaic.Lib.ValueIdx
import Idealize.ShloMosaic.Lib.Pipeline.Value
import Idealize.ShloMosaic.Lib.IdealHost

noncomputable section

namespace Cert.Rows

open Idealize.ShloMosaic Idealize.ShloMosaic.ValueIdx

/-! ## One row, and the operations on it -/

/-- Row `p` of an `M × C` array. -/
def row {M C : ℕ} {φ : FTy} (X : FVec Ideal ⟨2, ![M, C]⟩ φ) (p : Fin M) : Fin C → EReal :=
  fun k => X (ix2 p k)

/-- A row of `K` channels times a `K × N` matrix: channel `q` of the result is `∑ k, x k · W (k, q)`. -/
def lin {K N : ℕ} {φ : FTy} (W : FVec Ideal ⟨2, ![K, N]⟩ φ) (x : Fin K → EReal) : Fin N → EReal :=
  fun q => ∑ k : Fin K, x k * W (ix2 k q)

/-- The rectifier, channel by channel. -/
def relu {N : ℕ} (x : Fin N → EReal) : Fin N → EReal := fun q => max (x q) 0

/-- Channel `n` of a row, zero past its end. -/
def at0 {D : ℕ} (x : Fin D → EReal) (n : ℕ) : EReal := if h : n < D then x ⟨n, h⟩ else 0

/-- Two rows joined: the channels of `x`, then those of `y`. -/
def cat {A B C : ℕ} (x : Fin A → EReal) (y : Fin B → EReal) : Fin C → EReal :=
  fun j => if j.val < A then at0 x j.val else at0 y (j.val - A)

/-- Neighbouring channels added in pairs: channel `k` of the result is `x (2 k) + x (2 k + 1)`. -/
def pairSum {D C : ℕ} (x : Fin D → EReal) : Fin C → EReal :=
  fun k => at0 x (2 * k.val) + at0 x (2 * k.val + 1)

theorem at0_of_lt {D : ℕ} (x : Fin D → EReal) (n : ℕ) (h : n < D) : at0 x n = x ⟨n, h⟩ := dif_pos h

/-! ## Array operations read at a row -/

variable {M : ℕ}

/-- A change of float format is the identity on ideal values. -/
theorem row_truncf {C : ℕ} {φ ψ : FTy} (X : FVec Ideal ⟨2, ![M, C]⟩ φ) (h : ψ.bits < φ.bits) (p : Fin M) :
    row (truncf ψ X h) p = row X p := rfl

/-- The maximum with an array of zeros is the rectifier of each row. -/
theorem row_max_zero {C : ℕ} {φ : FTy} (X Z : FVec Ideal ⟨2, ![M, C]⟩ φ) (hZ : ∀ i, Z i = 0) (p : Fin M) :
    row (maximumf X Z) p = relu (row X p) := by
  funext q
  show max (X (ix2 p q)) (Z (ix2 p q)) = max (X (ix2 p q)) 0
  rw [hZ]

/-- The sum of two arrays is the sum of their rows. -/
theorem row_addf {C : ℕ} {φ : FTy} (X Y : FVec Ideal ⟨2, ![M, C]⟩ φ) (p : Fin M) :
    row (addf X Y) p = fun q => row X p q + row Y p q := rfl

/-- Two arrays joined along the channels: each row is the two rows joined. -/
theorem row_concat {A B C : ℕ} {φ : FTy} (X : FVec Ideal ⟨2, ![M, A]⟩ φ) (Y : FVec Ideal ⟨2, ![M, B]⟩ φ)
    (h : Shape.Concatenates [(⟨2, ![M, A]⟩ : Shape), ⟨2, ![M, B]⟩] ⟨2, ![M, C]⟩ 1) (hC : A + B = C) (p : Fin M) :
    row (φ := φ) (concatenate ⟨2, ![M, C]⟩ 1 [⟨⟨2, ![M, A]⟩, X⟩, ⟨⟨2, ![M, B]⟩, Y⟩] h) p = cat (row X p) (row Y p) := by
  funext j
  unfold cat
  by_cases hj : j.val < A
  · rw [if_pos hj, at0_of_lt _ _ hj]
    exact concatenate_pair_apply_left (1 : Fin 2) X Y h (ix2 p j) rfl (ix2 p ⟨j.val, hj⟩)
      (fun b => by match b with | ⟨0, _⟩ => rfl | ⟨1, _⟩ => rfl)
  · have hj2 : j.val - A < B := by have := j.isLt; omega
    rw [if_neg hj, at0_of_lt _ _ hj2]
    exact concatenate_pair_apply_right (1 : Fin 2) X Y h (ix2 p j) rfl rfl (ix2 p ⟨j.val - A, hj2⟩)
      (fun b hb => by match b with | ⟨0, _⟩ => rfl | ⟨1, _⟩ => exact absurd rfl hb)
      (by show (j.val - A) + A = j.val; omega)

/-! ## The matrix of zeros and ones that adds neighbours -/

/-- A row times the `D × C` matrix whose entry `(j, k)` is one when `j / 2 = k` and zero otherwise, `D = 2 C`: only the
    two terms `j = 2 k` and `j = 2 k + 1` of the sum over `j` survive, each with the factor one. -/
theorem lin_pair {D C : ℕ} {φ : FTy} (hD : D = 2 * C) (P : FVec Ideal ⟨2, ![D, C]⟩ φ)
    (hP : ∀ (j : Fin D) (k : Fin C), P (ix2 j k) = if j.val / 2 = k.val then 1 else 0) (x : Fin D → EReal) :
    lin P x = (pairSum x : Fin C → EReal) := by
  subst hD
  funext k
  have hk := k.isLt
  unfold lin pairSum
  have h1 : ∀ j : Fin (2 * C), x j * P (ix2 j k) = if j.val / 2 = k.val then x j else 0 := by
    intro j
    rw [hP]
    by_cases hj : j.val / 2 = k.val
    · rw [if_pos hj, if_pos hj, mul_one]
    · rw [if_neg hj, if_neg hj, mul_zero]
  rw [Finset.sum_congr rfl fun j _ => h1 j, ← Finset.sum_filter]
  have e : (Finset.univ.filter fun j : Fin (2 * C) => j.val / 2 = k.val)
      = {⟨2 * k.val, by omega⟩, ⟨2 * k.val + 1, by omega⟩} := by
    ext j
    simp only [Finset.mem_filter, Finset.mem_univ, true_and, Finset.mem_insert, Finset.mem_singleton, Fin.ext_iff]
    omega
  rw [e, Finset.sum_pair (by simp [Fin.ext_iff]), at0_of_lt _ _ (by omega), at0_of_lt _ _ (by omega)]

/-! ## The matrix of zeros and ones as the host builds it -/

/-- One word of the host's comparison of a row number with a column number, widened to a float: one when the two
    numbers agree, zero when they differ, for numbers below `2 ^ 32`. -/
theorem eq_word (a b : ℕ) (ha : a < 2 ^ 32) (hb : b < 2 ^ 32) :
    (FloatOps.uitofp (F := Ideal) .f32 (IntOp.cmpi .eq (IntOp.addi (BitVec.ofNat 32 a) 0#32) (BitVec.ofNat 32 b)) : EReal)
      = if a = b then 1 else 0 := by
  have hadd : IntOp.addi (BitVec.ofNat 32 a) 0#32 = BitVec.ofNat 32 a := by
    show BitVec.ofNat 32 a + 0#32 = _
    simp
  rw [hadd]
  show (((IntOp.cmpi .eq (BitVec.ofNat 32 a) (BitVec.ofNat 32 b)).toNat : ℝ) : EReal) = _
  by_cases hab : a = b
  · subst hab
    rw [if_pos rfl]
    simp [IntOp.cmpi]
  · rw [if_neg hab]
    have hne : BitVec.ofNat 32 a ≠ BitVec.ofNat 32 b := by
      intro h
      have := congrArg BitVec.toNat h
      simp only [BitVec.toNat_ofNat] at this
      rw [Nat.mod_eq_of_lt ha, Nat.mod_eq_of_lt hb] at this
      exact hab this
    simp [IntOp.cmpi, hne]

/-- The host builds the matrix of zeros and ones from the `C × C` identity pattern (row number compared with column
    number, widened to a float), repeats each of its rows twice (a broadcast to `C × 2 × C`) and lays the result out
    as `2 C` rows of `C`. Row `j` of the result is therefore row `j / 2` of the identity pattern: entry `(j, k)` is one
    when `j / 2 = k` and zero otherwise. -/
theorem pairMatrix_apply {C D : ℕ} (hD : D = 2 * C) (hC : C < 2 ^ 32)
    (hb0 : (⟨0, ![]⟩ : Shape).BroadcastsInDim ⟨2, ![C, C]⟩ ![])
    (hb : (⟨2, ![C, C]⟩ : Shape).BroadcastsInDim ⟨3, ![C, 2, C]⟩ ![0, 2])
    (hs : (⟨3, ![C, 2, C]⟩ : Shape).ShapeCasts ⟨2, ![D, C]⟩) (j : Fin D) (k : Fin C) :
    shapeCast ⟨2, ![D, C]⟩ (broadcastInDim ⟨3, ![C, 2, C]⟩ ![0, 2] hb
      (uitofp (F := Ideal) .f32 (cmpi .eq (addi (iotaInDim ⟨2, ![C, C]⟩ 32 0)
        (broadcastInDim ⟨2, ![C, C]⟩ ![] hb0 (constantI ⟨0, ![]⟩ 32 0#32))) (iotaInDim ⟨2, ![C, C]⟩ 32 1)))) hs (ix2 j k)
      = if j.val / 2 = k.val then 1 else 0 := by
  subst hD
  have hj := j.isLt
  have hk := k.isLt
  have ha : j.val / 2 < C := by omega
  have hr : j.val % 2 < 2 := Nat.mod_lt _ (by omega)
  rw [shapeCast_apply _ hs (ix2 j k) (ix3 ⟨j.val / 2, ha⟩ ⟨j.val % 2, hr⟩ k) (by
    rw [Shape.rowMajor_val_three, Shape.rowMajor_val_two]
    show (j.val / 2 * 2 + j.val % 2) * C + k.val = j.val * C + k.val
    rw [Nat.div_add_mod' j.val 2])]
  rw [broadcastInDim_apply ![0, 2] hb _ (ix3 ⟨j.val / 2, ha⟩ ⟨j.val % 2, hr⟩ k) (ix2 ⟨j.val / 2, ha⟩ k) (fun a => by
    match a with
    | ⟨0, _⟩ =>
      show j.val / 2 = if C = 1 then 0 else j.val / 2
      split
      · omega
      · rfl
    | ⟨1, _⟩ =>
      show k.val = if C = 1 then 0 else k.val
      split
      · omega
      · rfl)]
  show FloatOps.uitofp (F := Ideal) .f32 (IntOp.cmpi .eq (IntOp.addi (BitVec.ofNat 32 (j.val / 2)) 0#32) (BitVec.ofNat 32 k.val)) = _
  exact eq_word _ _ (by omega) (by omega)

end Cert.Rows

end
-- ==== Proof.LibRowDot.lean ====
/-
  A plain matrix product read at a row, at the ideal values.

  Row `p` of an `M × K` array times a `K × N` matrix is the row `q ↦ ∑ k, x k · W (k, q)` of the product, whether the
  product is the kernel's (into a zero accumulator) or the host's. Both are the entrywise sums of a plain product, taken
  one row at a time.
-/
import proofs.«169520_j6889127543366_1_alg».proof.Proof.LibDot
import proofs.«169520_j6889127543366_1_alg».proof.Proof.LibRows

noncomputable section

namespace Cert.Rows

open Idealize.ShloMosaic Idealize.ShloMosaic.ValueIdx

variable {M K N : ℕ}

/-- The kernel's product into the zero accumulator, one row at a time. -/
theorem row_matmul {φ₁ φ₂ : FTy} (prec : Option ContractPrecision)
    (X : FVec Ideal ⟨2, ![M, K]⟩ φ₁) (W : FVec Ideal ⟨2, ![K, N]⟩ φ₂) (p : Fin M) :
    row (φ := .f32) (FloatOps.matmul (DotDims.plain M K N) prec X W (constant ⟨2, ![M, N]⟩ .f32 0x00000000#32)) p
      = lin W (row X p) :=
  funext fun q => Cert.GNN.matmul_plain_zero_apply prec X W p q

/-- The host's product, one row at a time. -/
theorem row_dotGeneral {φ₁ φ₂ : FTy} (prec : Option ContractPrecision) (sched : HostSchedule)
    (X : FVec Ideal ⟨2, ![M, K]⟩ φ₁) (W : FVec Ideal ⟨2, ![K, N]⟩ φ₂) (p : Fin M) :
    row (φ := .f32) (FloatOps.dotGeneral (DotDims.plain M K N) prec sched X W) p = lin W (row X p) :=
  funext fun q => Cert.GNN.dotGeneral_plain_apply prec sched X W p q

/-- The zero word denotes zero. -/
theorem zero_word : (FloatOps.ofBits (F := Ideal) .f32 0x00000000#32 : EReal) = 0 := Ideal.ofBits_zero_f32

/-- A kernel's layer: operands narrowed (the identity on ideal values), the product into the zero accumulator, the
    maximum with a splat zero. One row at a time it is the product of the row followed by the rectifier. -/
theorem row_klayer (prec : Option ContractPrecision)
    (X : FVec Ideal ⟨2, ![M, K]⟩ .f32) (W : FVec Ideal ⟨2, ![K, N]⟩ .f32)
    (h₁ : FTy.bits .bf16 < FTy.bits .f32) (h₂ : FTy.bits .bf16 < FTy.bits .f32) (p : Fin M) :
    row (φ := .f32) (maximumf
        (FloatOps.matmul (DotDims.plain M K N) prec (truncf .bf16 X h₁) (truncf .bf16 W h₂) (constant ⟨2, ![M, N]⟩ .f32 0x00000000#32))
        (broadcast ⟨2, ![M, N]⟩ (FloatOps.ofBits (F := Ideal) .f32 0x00000000#32))) p
      = relu (lin W (row X p)) :=
  (row_max_zero _ (broadcast ⟨2, ![M, N]⟩ (FloatOps.ofBits (F := Ideal) .f32 0x00000000#32)) (fun _ => zero_word) p).trans
    (congrArg relu (row_matmul prec (truncf .bf16 X h₁) (truncf .bf16 W h₂) p))

/-- The host's layer: the product, then the maximum with a broadcast scalar zero. One row at a time it is the product
    of the row followed by the rectifier. -/
theorem row_hlayer (prec : Option ContractPrecision) (sched : HostSchedule)
    (X : FVec Ideal ⟨2, ![M, K]⟩ .f32) (W : FVec Ideal ⟨2, ![K, N]⟩ .f32)
    (hb : (⟨0, ![]⟩ : Shape).BroadcastsInDim ⟨2, ![M, N]⟩ ![]) (p : Fin M) :
    row (φ := .f32) (maximumf
        (FloatOps.dotGeneral (DotDims.plain M K N) prec sched X W)
        (broadcastInDim ⟨2, ![M, N]⟩ ![] hb (constant (F := Ideal) ⟨0, ![]⟩ .f32 0x00000000#32))) p
      = relu (lin W (row X p)) :=
  (row_max_zero _ (broadcastInDim ⟨2, ![M, N]⟩ ![] hb (constant (F := Ideal) ⟨0, ![]⟩ .f32 0x00000000#32))
      (fun i => (broadcastInDim_scalar_apply hb (constant (F := Ideal) ⟨0, ![]⟩ .f32 0x00000000#32) i).trans zero_word) p).trans
    (congrArg relu (row_dotGeneral prec sched X W p))

/-- A kernel's layer whose left operand arrives already narrowed. -/
theorem row_klayer' {φ : FTy} (prec : Option ContractPrecision)
    (X : FVec Ideal ⟨2, ![M, K]⟩ φ) (W : FVec Ideal ⟨2, ![K, N]⟩ .f32)
    (h₂ : FTy.bits .bf16 < FTy.bits .f32) (p : Fin M) :
    row (φ := .f32) (maximumf
        (FloatOps.matmul (DotDims.plain M K N) prec X (truncf .bf16 W h₂) (constant ⟨2, ![M, N]⟩ .f32 0x00000000#32))
        (broadcast ⟨2, ![M, N]⟩ (FloatOps.ofBits (F := Ideal) .f32 0x00000000#32))) p
      = relu (lin W (row X p)) :=
  (row_max_zero _ (broadcast ⟨2, ![M, N]⟩ (FloatOps.ofBits (F := Ideal) .f32 0x00000000#32)) (fun _ => zero_word) p).trans
    (congrArg relu (row_matmul prec X (truncf .bf16 W h₂) p))

/-- What a kernel's decoder stage feeds its up-sampling product: the rectified merge product of the joined array plus
    the joined array's product with the matrix of zeros and ones. One row at a time it is the rectified merge product
    of the joined row plus that row's channels added in neighbouring pairs (`lin_pair`). The merge product may take the
    joined array already narrowed (`Xn`, with the same rows). -/
theorem row_kstage {φ : FTy} {D C : ℕ} (prec : Option ContractPrecision) (hD : D = 2 * C)
    (Xn : FVec Ideal ⟨2, ![M, D]⟩ φ) (X : FVec Ideal ⟨2, ![M, D]⟩ .f32)
    (Wm P : FVec Ideal ⟨2, ![D, C]⟩ .f32)
    (hP : ∀ (j : Fin D) (k : Fin C), P (ix2 j k) = if j.val / 2 = k.val then 1 else 0)
    (h₂ h₃ h₄ : FTy.bits .bf16 < FTy.bits .f32) (p : Fin M) (hX : row Xn p = row X p) :
    row (φ := .f32) (addf
        (maximumf
          (FloatOps.matmul (DotDims.plain M D C) prec Xn (truncf .bf16 Wm h₂) (constant ⟨2, ![M, C]⟩ .f32 0x00000000#32))
          (broadcast ⟨2, ![M, C]⟩ (FloatOps.ofBits (F := Ideal) .f32 0x00000000#32)))
        (FloatOps.matmul (DotDims.plain M D C) prec (truncf .bf16 X h₃) (truncf .bf16 P h₄)
          (constant ⟨2, ![M, C]⟩ .f32 0x00000000#32))) p
      = fun q => relu (lin Wm (row X p)) q + (pairSum (row X p) : Fin C → EReal) q :=
  funext fun q =>
    congrArg₂ (· + ·)
      (congrFun ((row_klayer' prec Xn Wm h₂ p).trans (congrArg (fun r => relu (lin Wm r)) hX)) q)
      (congrFun ((row_matmul prec (truncf .bf16 X h₃) (truncf .bf16 P h₄) p).trans (lin_pair hD P hP (row X p))) q)

end Cert.Rows

end
-- ==== Proof.Net.lean ====
/-
  The network on one voxel.

  The input is a row `f` of 16 features. A stem and three encoder layers, each a matrix product followed by the
  rectifier, give rows `e1` (32 channels), `e2` (64) and `e3` (128). Three decoder stages follow, from the deepest
  level up. A stage takes the row `xb` coming from below and the encoder row `e` of its level: it joins `xb` with the
  rectified lateral product of `e` into a row `c` of `2 C` channels; it forms the rectified merge product of `c` (`C`
  channels) and adds to it the sum of `c`'s channels in neighbouring pairs (again `C` channels); and it sends the sum
  through the rectified up-sampling product. The result of the last stage is the voxel's 32 output channels.

  `out` is the whole result array: entry `(i, q)` is channel `q` of the network applied to row `i` of the features.
-/
import proofs.«169520_j6889127543366_1_alg».proof.Proof.LibRows

noncomputable section

namespace Cert.Net

open Idealize.ShloMosaic Idealize.ShloMosaic.ValueIdx Cert.Rows

/-- A `K × N` weight matrix of ideal values. -/
abbrev Mat (K N : ℕ) : Type := FVec Ideal ⟨2, ![K, N]⟩ .f32

/-- The thirteen weight matrices. -/
structure Weights where
  inp : Mat 16 32
  enc1 : Mat 32 32
  enc2 : Mat 32 64
  enc3 : Mat 64 128
  lat1 : Mat 32 32
  lat2 : Mat 64 64
  lat3 : Mat 128 128
  mrg1 : Mat 64 32
  mrg2 : Mat 128 64
  mrg3 : Mat 256 128
  up1 : Mat 32 32
  up2 : Mat 64 32
  up3 : Mat 128 64

/-- A product followed by the rectifier. -/
def layer {K N : ℕ} (W : Mat K N) (x : Fin K → EReal) : Fin N → EReal := relu (lin W x)

/-- The joined row of a decoder stage: the row from below, then the rectified lateral product of the encoder row. -/
def joined {Cb Ce Cl Cc : ℕ} (Wl : Mat Ce Cl) (xb : Fin Cb → EReal) (e : Fin Ce → EReal) : Fin Cc → EReal :=
  cat xb (layer Wl e)

/-- What a decoder stage feeds its up-sampling product, from its joined row `c`: the rectified merge product plus the
    pairwise channel sums; and the stage's result, that row through the rectified up-sampling product. -/
def pre {Cc Cm : ℕ} (Wm : Mat Cc Cm) (c : Fin Cc → EReal) : Fin Cm → EReal :=
  fun q => layer Wm c q + (pairSum c : Fin Cm → EReal) q

def stage {Cc Cm Co : ℕ} (Wm : Mat Cc Cm) (Wu : Mat Cm Co) (c : Fin Cc → EReal) : Fin Co → EReal :=
  layer Wu (pre Wm c)

variable (W : Weights) (f : Fin 16 → EReal)

def stem : Fin 32 → EReal := layer W.inp f
def e1 : Fin 32 → EReal := layer W.enc1 (stem W f)
def e2 : Fin 64 → EReal := layer W.enc2 (e1 W f)
def e3 : Fin 128 → EReal := layer W.enc3 (e2 W f)
def c3 : Fin 256 → EReal := joined W.lat3 (e3 W f) (e3 W f)
def d3 : Fin 64 → EReal := stage W.mrg3 W.up3 (c3 W f)
def c2 : Fin 128 → EReal := joined W.lat2 (d3 W f) (e2 W f)
def d2 : Fin 32 → EReal := stage W.mrg2 W.up2 (c2 W f)
def c1 : Fin 64 → EReal := joined W.lat1 (d2 W f) (e1 W f)
def d1 : Fin 32 → EReal := stage W.mrg1 W.up1 (c1 W f)

/-- The whole result: entry `(i, q)` is channel `q` of the network on row `i` of the features. -/
def out (feat : FVec Ideal ⟨2, ![500000, 16]⟩ .f32) : FVec Ideal ⟨2, ![500000, 32]⟩ .f32 :=
  fun i => d1 W (row feat ⟨(i 0).val, (i 0).isLt⟩) ⟨(i 1).val, (i 1).isLt⟩

theorem out_ix2 (feat : FVec Ideal ⟨2, ![500000, 16]⟩ .f32) (p : Fin 500000) (q : Fin 32) :
    out W feat (ix2 p q) = d1 W (row feat p) q := rfl

end Cert.Net

end
-- ==== Proof.KernelRows.lean ====
/-
  The kernel's block, one row at a time.

  At one grid point the kernel holds a block of 2000 feature rows and the whole weight matrices, and computes the block
  of 2000 result rows by the chain of products, rectifiers and joins of the network. Every step acts on each row by
  itself, so row `p` of each intermediate array is the network's corresponding row (`Net.e1`, `Net.c3`, …) of feature
  row `p`. The kernel adds neighbouring channels by a product with a matrix of zeros and ones; given that the three
  matrices it is handed are those (`hP1`, `hP2`, `hP3`), that product is the pairwise sum (`Rows.lin_pair`), and row `p`
  of the stored block is `Net.d1` of feature row `p`.
-/
import proofs.«169520_j6889127543366_1_alg».proof.Proof.Gen.KernelIdeal
import proofs.«169520_j6889127543366_1_alg».proof.Proof.Gen.KernelIdeal.Skeleton
import proofs.«169520_j6889127543366_1_alg».proof.Proof.LibRowDot
import proofs.«169520_j6889127543366_1_alg».proof.Proof.Net

noncomputable section

namespace Cert.KernelIdeal.Rows

open Idealize.ShloMosaic Idealize.ShloMosaic.ValueIdx Cert.KernelIdeal Cert.KernelIdeal.Gen Cert.Rows Cert.Net

/-! ## The products are plain products -/

theorem dot_16_32 : dot_S2000x16_S16x32_S2000x32_1_0_0_1_n_n = DotDims.plain 2000 16 32 := rfl
theorem dot_32_32 : dot_S2000x32_S32x32_S2000x32_1_0_0_1_n_n = DotDims.plain 2000 32 32 := rfl
theorem dot_32_64 : dot_S2000x32_S32x64_S2000x64_1_0_0_1_n_n = DotDims.plain 2000 32 64 := rfl
theorem dot_64_128 : dot_S2000x64_S64x128_S2000x128_1_0_0_1_n_n = DotDims.plain 2000 64 128 := rfl
theorem dot_128_128 : dot_S2000x128_S128x128_S2000x128_1_0_0_1_n_n = DotDims.plain 2000 128 128 := rfl
theorem dot_256_128 : dot_S2000x256_S256x128_S2000x128_1_0_0_1_n_n = DotDims.plain 2000 256 128 := rfl
theorem dot_128_64 : dot_S2000x128_S128x64_S2000x64_1_0_0_1_n_n = DotDims.plain 2000 128 64 := rfl
theorem dot_64_64 : dot_S2000x64_S64x64_S2000x64_1_0_0_1_n_n = DotDims.plain 2000 64 64 := rfl
theorem dot_64_32 : dot_S2000x64_S64x32_S2000x32_1_0_0_1_n_n = DotDims.plain 2000 64 32 := rfl

variable (W : Weights) (x0 : FVec Ideal S2000x16 .f32) (p : Fin 2000)

/-! ## The encoder -/

/-- Rows of the first encoder level. -/
theorem pay2_row : row (k0_pay2 x0 W.inp W.enc1) p = e1 W (row x0 p) := by
  unfold k0_pay2
  dsimp only
  rw [dot_16_32, dot_32_32]
  exact (row_klayer none _ W.enc1 _ _ p).trans (congrArg (layer W.enc1) (row_klayer none x0 W.inp _ _ p))

/-- Rows of the second encoder level. -/
theorem pay3_row : row (k0_pay3 x0 W.inp W.enc1 W.enc2) p = e2 W (row x0 p) := by
  unfold k0_pay3
  dsimp only
  rw [dot_32_64]
  exact (row_klayer none _ W.enc2 _ _ p).trans (congrArg (layer W.enc2) (pay2_row W x0 p))

/-- Rows of the deepest decoder stage's joined array: the third encoder level, then its rectified lateral product. -/
theorem pay4_row : row (k0_pay4 x0 W.inp W.enc1 W.enc2 W.enc3 W.lat3) p = c3 W (row x0 p) := by
  unfold k0_pay4
  dsimp only
  rw [dot_64_128, dot_128_128]
  have h3 : row (φ := .f32) (maximumf (FloatOps.matmul (DotDims.plain 2000 64 128) none (truncf .bf16 (k0_pay3 x0 W.inp W.enc1 W.enc2) bitsLt_bf16_f32)
      (truncf .bf16 W.enc3 bitsLt_bf16_f32) (constant S2000x128 .f32 0x00000000#32))
      (broadcast S2000x128 (FloatOps.ofBits (F := Ideal) .f32 0x00000000#32))) p = e3 W (row x0 p) :=
    (row_klayer none _ W.enc3 _ _ p).trans (congrArg (layer W.enc3) (pay3_row W x0 p))
  refine (row_concat _ _ concatenates_S2000x128_S2000x128_S2000x256_d1 rfl p).trans ?_
  unfold c3 joined
  rw [h3]
  exact congrArg (cat (e3 W (row x0 p))) ((row_klayer none _ W.lat3 _ _ p).trans (congrArg (layer W.lat3) h3))

theorem pay5_row : row (k0_pay5 x0 W.inp W.enc1 W.enc2 W.enc3 W.lat3) p = c3 W (row x0 p) :=
  pay4_row W x0 p

/-! ## The two deeper decoder stages -/

variable (P1 : FVec Ideal S64x32 .f32) (P2 : FVec Ideal S128x64 .f32) (P3 : FVec Ideal S256x128 .f32)

/-- From the deepest joined array to what the middle stage feeds its up-sampling product. The arrays `v18`, `v31`, `v32`
    are given by their rows. -/
theorem pay7_row (v18 : FVec Ideal S2000x64 .f32) (v31 : FVec Ideal S2000x256 .f32) (v32 : FVec Ideal S2000x256 .bf16)
    (f : Fin 16 → EReal) (h18 : row v18 p = e2 W f) (h31 : row v31 p = c3 W f) (h32 : row v32 p = c3 W f)
    (hP3 : ∀ (j : Fin 256) (k : Fin 128), P3 (ix2 j k) = if j.val / 2 = k.val then 1 else 0)
    (hP2 : ∀ (j : Fin 128) (k : Fin 64), P2 (ix2 j k) = if j.val / 2 = k.val then 1 else 0) :
    row (k0_pay7 (F := Ideal) v18 v31 v32 (k0_pay6 (F := Ideal) W.mrg3) P3 W.up3 W.lat2 W.mrg2 P2) p
      = pre W.mrg2 (c2 W f) := by
  unfold k0_pay7 k0_pay6
  dsimp only
  rw [dot_256_128, dot_128_64, dot_64_64, shapeCast_self, shapeCast_self]
  -- the outer narrowing is the identity (first step); then the middle stage's merge product plus the pairwise sums of
  -- its joined row
  refine (row_truncf _ _ p).trans ?_
  refine (row_kstage none (by rfl) _ _ W.mrg2 P2 hP2 _ _ _ p (by rfl)).trans (congrArg (pre W.mrg2) ?_)
  -- the middle stage's joined row: the deepest stage's result, then the lateral product of the second encoder level
  refine (row_concat _ _ concatenates_S2000x64_S2000x64_S2000x128_d1 (by rfl) p).trans ?_
  refine congrArg₂ (cat (C := 128)) ?_ ?_
  · -- the deepest stage: its up-sampling layer over its merge product plus pairwise sums
    refine (row_klayer none _ W.up3 _ _ p).trans (congrArg (layer W.up3) ?_)
    refine (row_kstage none (by rfl) v32 v31 W.mrg3 P3 hP3 _ _ _ p (h32.trans h31.symm)).trans ?_
    rw [h31]
    rfl
  · exact (row_klayer none v18 W.lat2 _ _ p).trans (congrArg (layer W.lat2) h18)

/-! ## The last stage, and the stored block -/

/-- The last stage, from the first encoder level `v12` and what the middle stage feeds its up-sampling product `v69`,
    both given by their rows. -/
theorem pay1_row (v12 : FVec Ideal S2000x32 .f32) (v69 : FVec Ideal S2000x64 .bf16)
    (f : Fin 16 → EReal) (h12 : row v12 p = e1 W f) (h69 : row v69 p = pre W.mrg2 (c2 W f))
    (hP1 : ∀ (j : Fin 64) (k : Fin 32), P1 (ix2 j k) = if j.val / 2 = k.val then 1 else 0) :
    row (k0_pay1 (F := Ideal) v12 v69 (k0_pay8 (F := Ideal) W.up2) (constant S2000x32 .f32 0x00000000#32)
      W.lat1 W.mrg1 P1 W.up1) p = d1 W f := by
  unfold k0_pay1 k0_pay8
  dsimp only
  rw [dot_64_32, dot_32_32, shapeCast_self]
  refine (row_klayer none _ W.up1 _ _ p).trans (congrArg (layer W.up1) ?_)
  refine (row_kstage none (by rfl) _ _ W.mrg1 P1 hP1 _ _ _ p (by rfl)).trans (congrArg (pre W.mrg1) ?_)
  refine (row_concat _ _ concatenates_S2000x32_S2000x32_S2000x64_d1 (by rfl) p).trans ?_
  refine congrArg₂ (cat (C := 64)) ?_ ?_
  · exact (row_klayer' none v69 W.up2 _ p).trans (congrArg (layer W.up2) h69)
  · exact (row_klayer none v12 W.lat1 _ _ p).trans (congrArg (layer W.lat1) h12)

/-- Row `p` of the block the kernel stores is the network's result for feature row `p`. -/
theorem payload_row
    (hP1 : ∀ (j : Fin 64) (k : Fin 32), P1 (ix2 j k) = if j.val / 2 = k.val then 1 else 0)
    (hP2 : ∀ (j : Fin 128) (k : Fin 64), P2 (ix2 j k) = if j.val / 2 = k.val then 1 else 0)
    (hP3 : ∀ (j : Fin 256) (k : Fin 128), P3 (ix2 j k) = if j.val / 2 = k.val then 1 else 0) :
    row (k0_pay1 (F := Ideal) (k0_pay2 (F := Ideal) x0 W.inp W.enc1)
      (k0_pay7 (F := Ideal) (k0_pay3 (F := Ideal) x0 W.inp W.enc1 W.enc2) (k0_pay4 (F := Ideal) x0 W.inp W.enc1 W.enc2 W.enc3 W.lat3)
        (k0_pay5 (F := Ideal) x0 W.inp W.enc1 W.enc2 W.enc3 W.lat3) (k0_pay6 (F := Ideal) W.mrg3) P3 W.up3 W.lat2 W.mrg2 P2)
      (k0_pay8 (F := Ideal) W.up2) (constant S2000x32 .f32 0x00000000#32) W.lat1 W.mrg1 P1 W.up1) p = d1 W (row x0 p) :=
  pay1_row W p P1 _ _ (row x0 p) (pay2_row W x0 p)
    (pay7_row W p P2 P3 _ _ _ (row x0 p) (pay3_row W x0 p) (pay4_row W x0 p) (pay5_row W x0 p) hP3 hP2) hP1

end Cert.KernelIdeal.Rows

end
-- ==== Proof.KernelValue.lean ====
/-
  From the kernel's blocks to its whole result array.

  Grid point `t` stages rows `2000 t … 2000 t + 1999` of the features and every weight matrix whole, and writes back rows
  `2000 t … 2000 t + 1999` of the result. A window that stages a whole array re-indexes nothing: its block index is
  zero on both axes at every point, so the staged block IS the array. The features' and the result's windows move
  along the rows: block index `t` on axis 0, zero on axis 1. With the block payload read one row at a time
  (`Rows.payload_row`) this makes what point `t` writes back block `t` of `Net.out`; the 250 blocks of 2000 rows cover
  all 500000 rows, so the array ends holding `Net.out`.
-/
import proofs.«169520_j6889127543366_1_alg».proof.Proof.Gen.KernelIdeal.Value
import proofs.«169520_j6889127543366_1_alg».proof.Proof.KernelRows
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.Rows Cert.Net
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- An index whose coordinates are `0 · size + 1 · y` on both axes is `y`. -/
theorem emb_id {A B : ℕ} (e y : (⟨2, ![A, B]⟩ : Shape).Idx) (i0 i1 : ℕ) (h0 : i0 = 0) (h1 : i1 = 0)
    (he0 : (e 0).val = i0 * A + 1 * (y 0).val) (he1 : (e 1).val = i1 * B + 1 * (y 1).val) : e = y := by
  subst h0 h1
  funext a
  apply Fin.ext
  match a with
  | ⟨0, _⟩ => exact he0.trans (by show 0 * A + 1 * (y 0).val = (y 0).val; omega)
  | ⟨1, _⟩ => exact he1.trans (by show 0 * B + 1 * (y 1).val = (y 1).val; omega)

/-! ## The printed index maps, decided over the 250 grid points -/

theorem idx0 : ∀ t : Fin cfg0.N, win0_0.index t (0 : Fin 2) = t.val ∧ win0_0.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

/-! ## A window that stages a whole array holds that array -/

theorem iblk1 (c : Dev nD) (t : Fin cfg0.N) : iblk m c 1 t = m ((c : Thread nD τ).loc main_arg2) := by
  funext y
  show V m c main_arg2 (((cfg0.win 1).blk t).view.emb y) = _
  rw [V_main_arg2]
  exact congrArg _ (emb_id (A := 16) (B := 32) (((cfg0.win 1).blk t).view.emb y) y _ _ (idx1 t).1 (idx1 t).2 rfl rfl)

theorem idx2 : ∀ t : Fin cfg0.N, win0_2.index t (0 : Fin 2) = 0 ∧ win0_2.index t (1 : Fin 2) = 0 :=
  (by decide +kernel : ∀ t : Fin grid0.N, _)
theorem iblk2 (c : Dev nD) (t : Fin cfg0.N) : iblk m c 2 t = m ((c : Thread nD τ).loc main_arg3) := by
  funext y
  show V m c main_arg3 (((cfg0.win 2).blk t).view.emb y) = _
  rw [V_main_arg3]
  exact congrArg _ (emb_id (A := 32) (B := 32) (((cfg0.win 2).blk t).view.emb y) y _ _ (idx2 t).1 (idx2 t).2 rfl rfl)

theorem idx3 : ∀ t : Fin cfg0.N, win0_3.index t (0 : Fin 2) = 0 ∧ win0_3.index t (1 : Fin 2) = 0 :=
  (by decide +kernel : ∀ t : Fin grid0.N, _)
theorem iblk3 (c : Dev nD) (t : Fin cfg0.N) : iblk m c 3 t = m ((c : Thread nD τ).loc main_arg4) := by
  funext y
  show V m c main_arg4 (((cfg0.win 3).blk t).view.emb y) = _
  rw [V_main_arg4]
  exact congrArg _ (emb_id (A := 32) (B := 64) (((cfg0.win 3).blk t).view.emb y) y _ _ (idx3 t).1 (idx3 t).2 rfl rfl)

theorem idx4 : ∀ t : Fin cfg0.N, win0_4.index t (0 : Fin 2) = 0 ∧ win0_4.index t (1 : Fin 2) = 0 :=
  (by decide +kernel : ∀ t : Fin grid0.N, _)
theorem iblk4 (c : Dev nD) (t : Fin cfg0.N) : iblk m c 4 t = m ((c : Thread nD τ).loc main_arg5) := by
  funext y
  show V m c main_arg5 (((cfg0.win 4).blk t).view.emb y) = _
  rw [V_main_arg5]
  exact congrArg _ (emb_id (A := 64) (B := 128) (((cfg0.win 4).blk t).view.emb y) y _ _ (idx4 t).1 (idx4 t).2 rfl rfl)

theorem idx5 : ∀ t : Fin cfg0.N, win0_5.index t (0 : Fin 2) = 0 ∧ win0_5.index t (1 : Fin 2) = 0 :=
  (by decide +kernel : ∀ t : Fin grid0.N, _)
theorem iblk5 (c : Dev nD) (t : Fin cfg0.N) : iblk m c 5 t = m ((c : Thread nD τ).loc main_arg6) := by
  funext y
  show V m c main_arg6 (((cfg0.win 5).blk t).view.emb y) = _
  rw [V_main_arg6]
  exact congrArg _ (emb_id (A := 32) (B := 32) (((cfg0.win 5).blk t).view.emb y) y _ _ (idx5 t).1 (idx5 t).2 rfl rfl)

theorem idx6 : ∀ t : Fin cfg0.N, win0_6.index t (0 : Fin 2) = 0 ∧ win0_6.index t (1 : Fin 2) = 0 :=
  (by decide +kernel : ∀ t : Fin grid0.N, _)
theorem iblk6 (c : Dev nD) (t : Fin cfg0.N) : iblk m c 6 t = m ((c : Thread nD τ).loc main_arg7) := by
  funext y
  show V m c main_arg7 (((cfg0.win 6).blk t).view.emb y) = _
  rw [V_main_arg7]
  exact congrArg _ (emb_id (A := 64) (B := 64) (((cfg0.win 6).blk t).view.emb y) y _ _ (idx6 t).1 (idx6 t).2 rfl rfl)

theorem idx7 : ∀ t : Fin cfg0.N, win0_7.index t (0 : Fin 2) = 0 ∧ win0_7.index t (1 : Fin 2) = 0 :=
  (by decide +kernel : ∀ t : Fin grid0.N, _)
theorem iblk7 (c : Dev nD) (t : Fin cfg0.N) : iblk m c 7 t = m ((c : Thread nD τ).loc main_arg8) := by
  funext y
  show V m c main_arg8 (((cfg0.win 7).blk t).view.emb y) = _
  rw [V_main_arg8]
  exact congrArg _ (emb_id (A := 128) (B := 128) (((cfg0.win 7).blk t).view.emb y) y _ _ (idx7 t).1 (idx7 t).2 rfl rfl)

theorem idx8 : ∀ t : Fin cfg0.N, win0_8.index t (0 : Fin 2) = 0 ∧ win0_8.index t (1 : Fin 2) = 0 :=
  (by decide +kernel : ∀ t : Fin grid0.N, _)
theorem iblk8 (c : Dev nD) (t : Fin cfg0.N) : iblk m c 8 t = m ((c : Thread nD τ).loc main_arg9) := by
  funext y
  show V m c main_arg9 (((cfg0.win 8).blk t).view.emb y) = _
  rw [V_main_arg9]
  exact congrArg _ (emb_id (A := 64) (B := 32) (((cfg0.win 8).blk t).view.emb y) y _ _ (idx8 t).1 (idx8 t).2 rfl rfl)

theorem idx9 : ∀ t : Fin cfg0.N, win0_9.index t (0 : Fin 2) = 0 ∧ win0_9.index t (1 : Fin 2) = 0 :=
  (by decide +kernel : ∀ t : Fin grid0.N, _)
theorem iblk9 (c : Dev nD) (t : Fin cfg0.N) : iblk m c 9 t = m ((c : Thread nD τ).loc main_arg10) := by
  funext y
  show V m c main_arg10 (((cfg0.win 9).blk t).view.emb y) = _
  rw [V_main_arg10]
  exact congrArg _ (emb_id (A := 128) (B := 64) (((cfg0.win 9).blk t).view.emb y) y _ _ (idx9 t).1 (idx9 t).2 rfl rfl)

theorem idx10 : ∀ t : Fin cfg0.N, win0_10.index t (0 : Fin 2) = 0 ∧ win0_10.index t (1 : Fin 2) = 0 :=
  (by decide +kernel : ∀ t : Fin grid0.N, _)
theorem iblk10 (c : Dev nD) (t : Fin cfg0.N) : iblk m c 10 t = m ((c : Thread nD τ).loc main_arg11) := by
  funext y
  show V m c main_arg11 (((cfg0.win 10).blk t).view.emb y) = _
  rw [V_main_arg11]
  exact congrArg _ (emb_id (A := 256) (B := 128) (((cfg0.win 10).blk t).view.emb y) y _ _ (idx10 t).1 (idx10 t).2 rfl rfl)

theorem idx11 : ∀ t : Fin cfg0.N, win0_11.index t (0 : Fin 2) = 0 ∧ win0_11.index t (1 : Fin 2) = 0 :=
  (by decide +kernel : ∀ t : Fin grid0.N, _)
theorem iblk11 (c : Dev nD) (t : Fin cfg0.N) : iblk m c 11 t = m ((c : Thread nD τ).loc main_arg12) := by
  funext y
  show V m c main_arg12 (((cfg0.win 11).blk t).view.emb y) = _
  rw [V_main_arg12]
  exact congrArg _ (emb_id (A := 32) (B := 32) (((cfg0.win 11).blk t).view.emb y) y _ _ (idx11 t).1 (idx11 t).2 rfl rfl)

theorem idx12 : ∀ t : Fin cfg0.N, win0_12.index t (0 : Fin 2) = 0 ∧ win0_12.index t (1 : Fin 2) = 0 :=
  (by decide +kernel : ∀ t : Fin grid0.N, _)
theorem iblk12 (c : Dev nD) (t : Fin cfg0.N) : iblk m c 12 t = m ((c : Thread nD τ).loc main_arg13) := by
  funext y
  show V m c main_arg13 (((cfg0.win 12).blk t).view.emb y) = _
  rw [V_main_arg13]
  exact congrArg _ (emb_id (A := 64) (B := 32) (((cfg0.win 12).blk t).view.emb y) y _ _ (idx12 t).1 (idx12 t).2 rfl rfl)

theorem idx13 : ∀ t : Fin cfg0.N, win0_13.index t (0 : Fin 2) = 0 ∧ win0_13.index t (1 : Fin 2) = 0 :=
  (by decide +kernel : ∀ t : Fin grid0.N, _)
theorem iblk13 (c : Dev nD) (t : Fin cfg0.N) : iblk m c 13 t = m ((c : Thread nD τ).loc main_arg14) := by
  funext y
  show V m c main_arg14 (((cfg0.win 13).blk t).view.emb y) = _
  rw [V_main_arg14]
  exact congrArg _ (emb_id (A := 128) (B := 64) (((cfg0.win 13).blk t).view.emb y) y _ _ (idx13 t).1 (idx13 t).2 rfl rfl)

/-! The last three whole windows stage the matrices of zeros and ones that @main builds before the region. -/

theorem idx14 : ∀ t : Fin cfg0.N, win0_14.index t (0 : Fin 2) = 0 ∧ win0_14.index t (1 : Fin 2) = 0 :=
  (by decide +kernel : ∀ t : Fin grid0.N, _)
theorem iblk14 (c : Dev nD) (t : Fin cfg0.N) : iblk m c 14 t = V m c main_v7 := by
  funext y
  show V m c main_v7 (((cfg0.win 14).blk t).view.emb y) = _
  exact congrArg _ (emb_id (A := 64) (B := 32) (((cfg0.win 14).blk t).view.emb y) y _ _ (idx14 t).1 (idx14 t).2 rfl rfl)

theorem idx15 : ∀ t : Fin cfg0.N, win0_15.index t (0 : Fin 2) = 0 ∧ win0_15.index t (1 : Fin 2) = 0 :=
  (by decide +kernel : ∀ t : Fin grid0.N, _)
theorem iblk15 (c : Dev nD) (t : Fin cfg0.N) : iblk m c 15 t = V m c main_v15 := by
  funext y
  show V m c main_v15 (((cfg0.win 15).blk t).view.emb y) = _
  exact congrArg _ (emb_id (A := 128) (B := 64) (((cfg0.win 15).blk t).view.emb y) y _ _ (idx15 t).1 (idx15 t).2 rfl rfl)

theorem idx16 : ∀ t : Fin cfg0.N, win0_16.index t (0 : Fin 2) = 0 ∧ win0_16.index t (1 : Fin 2) = 0 :=
  (by decide +kernel : ∀ t : Fin grid0.N, _)
theorem iblk16 (c : Dev nD) (t : Fin cfg0.N) : iblk m c 16 t = V m c main_v23 := by
  funext y
  show V m c main_v23 (((cfg0.win 16).blk t).view.emb y) = _
  exact congrArg _ (emb_id (A := 256) (B := 128) (((cfg0.win 16).blk t).view.emb y) y _ _ (idx16 t).1 (idx16 t).2 rfl rfl)

/-! ## The matrices of zeros and ones, as the region finds them -/

/-- The first pairing matrix, `64 × 32`: the host's identity pattern of size 32 with every row repeated twice. -/
theorem P1_apply (c : Dev nD) (j : Fin 64) (k : Fin 32) :
    (V m c main_v7 : S64x32.Idx → EReal) (ix2 j k) = (if j.val / 2 = k.val then 1 else 0 : EReal) := by
  have e : (V m c main_v7 : S64x32.Idx → EReal)
      = shapeCast S64x32 (broadcastInDim S32x2x32 ![0, 2] bcast_S32x32_S32x2x32_0_2
          (uitofp (F := Ideal) .f32 (cmpi .eq (addi (iotaInDim S32x32 32 0)
            (broadcastInDim S32x32 ![] bcast_S_S32x32 (constantI S_ 32 0#32))) (iotaInDim S32x32 32 1))))
          shapeCasts_S32x2x32_S64x32 := by
    dsimp only [V, hostOps0]; after_results; rfl
  rw [e]
  exact pairMatrix_apply rfl (by norm_num) bcast_S_S32x32 bcast_S32x32_S32x2x32_0_2 shapeCasts_S32x2x32_S64x32 j k

/-- The second pairing matrix, `128 × 64`: the identity pattern of size 64 with every row repeated twice. -/
theorem P2_apply (c : Dev nD) (j : Fin 128) (k : Fin 64) :
    (V m c main_v15 : S128x64.Idx → EReal) (ix2 j k) = (if j.val / 2 = k.val then 1 else 0 : EReal) := by
  have e : (V m c main_v15 : S128x64.Idx → EReal)
      = shapeCast S128x64 (broadcastInDim S64x2x64 ![0, 2] bcast_S64x64_S64x2x64_0_2
          (uitofp (F := Ideal) .f32 (cmpi .eq (addi (iotaInDim S64x64 32 0)
            (broadcastInDim S64x64 ![] bcast_S_S64x64 (constantI S_ 32 0#32))) (iotaInDim S64x64 32 1))))
          shapeCasts_S64x2x64_S128x64 := by
    dsimp only [V, hostOps0]; after_results; rfl
  rw [e]
  exact pairMatrix_apply rfl (by norm_num) bcast_S_S64x64 bcast_S64x64_S64x2x64_0_2 shapeCasts_S64x2x64_S128x64 j k

/-- The third pairing matrix, `256 × 128`: the identity pattern of size 128 with every row repeated twice. -/
theorem P3_apply (c : Dev nD) (j : Fin 256) (k : Fin 128) :
    (V m c main_v23 : S256x128.Idx → EReal) (ix2 j k) = (if j.val / 2 = k.val then 1 else 0 : EReal) := by
  have e : (V m c main_v23 : S256x128.Idx → EReal)
      = shapeCast S256x128 (broadcastInDim S128x2x128 ![0, 2] bcast_S128x128_S128x2x128_0_2
          (uitofp (F := Ideal) .f32 (cmpi .eq (addi (iotaInDim S128x128 32 0)
            (broadcastInDim S128x128 ![] bcast_S_S128x128 (constantI S_ 32 0#32))) (iotaInDim S128x128 32 1))))
          shapeCasts_S128x2x128_S256x128 := by
    dsimp only [V, hostOps0]; after_results; rfl
  rw [e]
  exact pairMatrix_apply rfl (by norm_num) bcast_S_S128x128 bcast_S128x128_S128x2x128_0_2 shapeCasts_S128x2x128_S256x128 j k

/-! ## The feature block and the result block -/

/-- Row `p` of the feature block at point `t` is row `2000 t + p` of the features. -/
theorem feat_blk (c : Dev nD) (t : Fin cfg0.N) (p : Fin 2000) (k : Fin 16) (h : t.val * 2000 + p.val < 500000) :
    iblk m c 0 t (ix2 p k) = m ((c : Thread nD τ).loc main_arg0) (ix2 (⟨t.val * 2000 + p.val, h⟩ : Fin 500000) k) := by
  show V m c main_arg0 (((cfg0.win 0).blk t).view.emb (ix2 p k)) = _
  rw [V_main_arg0]
  refine congrArg _ (funext fun a => Fin.ext ?_)
  obtain ⟨e0, e1⟩ := idx0 t
  match a with
  | ⟨0, _⟩ => show win0_0.index t (0 : Fin 2) * 2000 + 1 * p.val = t.val * 2000 + p.val; omega
  | ⟨1, _⟩ => show win0_0.index t (1 : Fin 2) * 16 + 1 * k.val = k.val; omega

/-- An index of the result array is in point `t`'s block iff each coordinate is in the block's range on its axis. -/
theorem mem_blk (t : Fin cfg0.N) (i : S500000x32.Idx) :
    i ∈ ((cfg0.win 17).blk t).view.set ↔ ∀ a : Fin 2, win0_17.index t a * S2000x32.size a ≤ (i a).val
      ∧ (i a).val < win0_17.index t a * S2000x32.size a + S2000x32.size a := by
  show i ∈ ((View.whole main_v24).slice (win0_17.rect t)).set ↔ _
  rw [View.set_slice_whole, Rect.mem_set_unit]
  exact Iff.rfl

/-- Every index of the result array lies in some point's block: row `r` in the block of point `r / 2000`. -/
theorem cover (i : S500000x32.Idx) :
    ∃ t : Fin cfg0.N, (cfg0.win 17).flush t = true ∧ i ∈ ((cfg0.win 17).blk t).view.set := by
  have hi0 : (i 0).val < 500000 := (i 0).isLt
  have hi1 : (i 1).val < 32 := (i 1).isLt
  have hN : (i 0).val / 2000 < cfg0.N := by show (i 0).val / 2000 < grid0.N; rw [N_0]; omega
  refine ⟨⟨(i 0).val / 2000, hN⟩, flush0_17 _, ?_⟩
  rw [mem_blk]
  obtain ⟨e0, e1⟩ := idx17 ⟨(i 0).val / 2000, hN⟩
  intro a
  match a with
  | ⟨0, _⟩ =>
    show win0_17.index ⟨(i 0).val / 2000, hN⟩ (0 : Fin 2) * 2000 ≤ (i 0).val
      ∧ (i 0).val < win0_17.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_17.index ⟨(i 0).val / 2000, hN⟩ (1 : Fin 2) * 32 ≤ (i 1).val
      ∧ (i 1).val < win0_17.index ⟨(i 0).val / 2000, hN⟩ (1 : Fin 2) * 32 + 32
    rw [e1]; omega

/-! ## The result array -/

/-- The thirteen weight matrices as launched. -/
abbrev Wm (c : Dev nD) : Weights where
  inp := m ((c : Thread nD τ).loc main_arg2)
  enc1 := m ((c : Thread nD τ).loc main_arg3)
  enc2 := m ((c : Thread nD τ).loc main_arg4)
  enc3 := m ((c : Thread nD τ).loc main_arg5)
  lat1 := m ((c : Thread nD τ).loc main_arg6)
  lat2 := m ((c : Thread nD τ).loc main_arg7)
  lat3 := m ((c : Thread nD τ).loc main_arg8)
  mrg1 := m ((c : Thread nD τ).loc main_arg9)
  mrg2 := m ((c : Thread nD τ).loc main_arg10)
  mrg3 := m ((c : Thread nD τ).loc main_arg11)
  up1 := m ((c : Thread nD τ).loc main_arg12)
  up2 := m ((c : Thread nD τ).loc main_arg13)
  up3 := m ((c : Thread nD τ).loc main_arg14)

/-- The network's result array at an index given by its coordinates. -/
theorem out_at (W : Weights) (feat : FVec Ideal ⟨2, ![500000, 16]⟩ .f32) (i : (⟨2, ![500000, 32]⟩ : Shape).Idx)
    (r : Fin 500000) (q : Fin 32) (h0 : (i 0).val = r.val) (h1 : (i 1).val = q.val) :
    out W feat i = d1 W (row feat r) q := by
  have e : i = ix2 r q := funext fun a => Fin.ext (by
    match a with
    | ⟨0, _⟩ => exact h0
    | ⟨1, _⟩ => exact h1)
  rw [e]
  rfl

/-- WHAT POINT `t` WRITES BACK is block `t` of the network's result array: row `p` of the stored block is the network on
    row `p` of the feature block, which is row `2000 t + p` of the features, and the block sits at rows `2000 t …`. -/
theorem flushed_eq (c : Dev nD) (t : Fin cfg0.N) :
    (dats m 0 c).flushed 17 t
      = ((cfg0.win 17).blk t).view.read (Elt Ideal) (out (Wm m c) (m ((c : Thread nD τ).loc main_arg0))) := by
  rw [Cert.KernelIdeal.Value.flushed17]
  unfold out0_17
  rw [View.canon_unit_zero hz]
  simp only [View.ld_unit_zero (S := S2000x16) hz, View.ld_unit_zero (S := S16x32) hz, View.ld_unit_zero (S := S32x32) hz,
    View.ld_unit_zero (S := S32x64) hz, View.ld_unit_zero (S := S64x128) hz, View.ld_unit_zero (S := S128x128) hz,
    View.ld_unit_zero (S := S256x128) hz, View.ld_unit_zero (S := S128x64) hz, View.ld_unit_zero (S := S64x64) hz,
    View.ld_unit_zero (S := S64x32) hz]
  rw [iblk1 m c t, iblk2 m c t, iblk3 m c t, iblk4 m c t, iblk5 m c t, iblk6 m c t, iblk7 m c t, iblk8 m c t,
    iblk9 m c t, iblk10 m c t, iblk11 m c t, iblk12 m c t, iblk13 m c t, iblk14 m c t, iblk15 m c t, iblk16 m c t]
  funext j
  obtain ⟨p, q, rfl⟩ : ∃ (p : Fin 2000) (q : Fin 32), j = ix2 p q := ⟨j 0, j 1, eq_ix2 j⟩
  have hp := p.isLt
  have ht : t.val < 250 := lt_of_lt_of_eq t.isLt N_0
  have h : t.val * 2000 + p.val < 500000 := by omega
  have hrow : row (φ := .f32) (iblk m c 0 t) p
      = row (φ := .f32) (m ((c : Thread nD τ).loc main_arg0)) (⟨t.val * 2000 + p.val, h⟩ : Fin 500000) :=
    funext fun k => feat_blk m c t p k h
  refine (congrFun (Cert.KernelIdeal.Rows.payload_row (Wm m c) (iblk m c 0 t) p (V m c main_v7) (V m c main_v15) (V m c main_v23)
    (P1_apply m c) (P2_apply m c) (P3_apply m c)) q).trans ?_
  rw [hrow]
  obtain ⟨e0, e1⟩ := idx17 t
  exact (out_at (Wm m c) _ _ ⟨t.val * 2000 + p.val, h⟩ q
    (by show win0_17.index t (0 : Fin 2) * 2000 + 1 * p.val = t.val * 2000 + p.val; omega)
    (by show win0_17.index t (1 : Fin 2) * 32 + 1 * q.val = q.val; omega)).symm

/-- THE ARRAY after the run: the 250 blocks of 2000 rows cover it, so it holds the network's result array. -/
theorem final (c : Dev nD) :
    (dats m 0 c).arrAt 17 cfg0.N = out (Wm m c) (m ((c : Thread nD τ).loc main_arg0)) :=
  (dats m 0 c).arrAt_eq_of_cover 17 _ (fun t _ => flushed_eq m c t) cover

/-- The frame run re-posted: the result array is the network's result array of the arguments, the arguments unchanged. -/
theorem run : θ_run defs (onTc (τ := τ) (main (F := Ideal))) ⟨m, fun _ => 0, ρ⟩ fun r => ∀ c : Dev nD,
      r.2.mem ((c : Thread nD τ).loc main_v24) = out (Wm m c) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩)
    (Cert.KernelIdeal.Value.run_blocks m ρ)

end Cert.KernelIdeal.Whole

end
-- ==== Proof.RefRows.lean ====
/-
  The reference, one row at a time.

  The reference applies the network to the whole array of 500000 feature rows, one operation after another. Every
  operation acts on each row by itself, so row `p` of each intermediate array is the network's corresponding row
  (`Net.e1`, `Net.c3`, …) of feature row `p`. The reference adds neighbouring channels by laying a row of `2 C` channels
  out as `C` pairs and summing each pair onto zero: channel `q` of that is `0 + (c (2 q) + c (2 q + 1))`.
-/
import proofs.«169520_j6889127543366_1_alg».proof.Proof.Gen.ReferenceIdeal
import proofs.«169520_j6889127543366_1_alg».proof.Proof.Gen.ReferenceIdeal.Read
import proofs.«169520_j6889127543366_1_alg».proof.Proof.LibRowDot
import proofs.«169520_j6889127543366_1_alg».proof.Proof.Net

noncomputable section

namespace Cert.ReferenceIdeal.Rows

open Idealize.ShloMosaic Idealize.ShloMosaic.ValueIdx Cert.ReferenceIdeal Cert.ReferenceIdeal.Gen Cert.ReferenceIdeal.Read
open Cert.Rows Cert.Net

/-! ## The products are plain products -/

theorem dot_16_32 : dot_S500000x16_S16x32_S500000x32_1_0_0_1_n_n = DotDims.plain 500000 16 32 := rfl
theorem dot_32_32 : dot_S500000x32_S32x32_S500000x32_1_0_0_1_n_n = DotDims.plain 500000 32 32 := rfl
theorem dot_32_64 : dot_S500000x32_S32x64_S500000x64_1_0_0_1_n_n = DotDims.plain 500000 32 64 := rfl
theorem dot_64_128 : dot_S500000x64_S64x128_S500000x128_1_0_0_1_n_n = DotDims.plain 500000 64 128 := rfl
theorem dot_128_128 : dot_S500000x128_S128x128_S500000x128_1_0_0_1_n_n = DotDims.plain 500000 128 128 := rfl
theorem dot_256_128 : dot_S500000x256_S256x128_S500000x128_1_0_0_1_n_n = DotDims.plain 500000 256 128 := rfl
theorem dot_128_64 : dot_S500000x128_S128x64_S500000x64_1_0_0_1_n_n = DotDims.plain 500000 128 64 := rfl
theorem dot_64_64 : dot_S500000x64_S64x64_S500000x64_1_0_0_1_n_n = DotDims.plain 500000 64 64 := rfl
theorem dot_64_32 : dot_S500000x64_S64x32_S500000x32_1_0_0_1_n_n = DotDims.plain 500000 64 32 := rfl

variable (W : Weights) (feat : FVec Ideal S500000x16 .f32) (p : Fin 500000)

/-! ## The encoder -/

theorem r1 : row (φ := .f32) (val_main_v1 (F := Ideal) feat W.inp) p = stem W (row feat p) := by
  unfold val_main_v1 val_main_v0 val_main_call0_v0 val_main_call0_cst
  rw [dot_16_32]
  exact row_hlayer none .single feat W.inp _ p

theorem r3 : row (φ := .f32) (val_main_v3 (F := Ideal) feat W.inp W.enc1) p = e1 W (row feat p) := by
  unfold val_main_v3 val_main_v2 val_main_call1_v0 val_main_call1_cst
  rw [dot_32_32]
  exact (row_hlayer none .single _ W.enc1 _ p).trans (congrArg (layer W.enc1) (r1 W feat p))

theorem r5 : row (φ := .f32) (val_main_v5 (F := Ideal) feat W.inp W.enc1 W.enc2) p = e2 W (row feat p) := by
  unfold val_main_v5 val_main_v4 val_main_call2_v0 val_main_call2_cst
  rw [dot_32_64]
  exact (row_hlayer none .single _ W.enc2 _ p).trans (congrArg (layer W.enc2) (r3 W feat p))

theorem r7 : row (φ := .f32) (val_main_v7 (F := Ideal) feat W.inp W.enc1 W.enc2 W.enc3) p = e3 W (row feat p) := by
  unfold val_main_v7 val_main_v6 val_main_call3_v0 val_main_call3_cst
  rw [dot_64_128]
  exact (row_hlayer none .single _ W.enc3 _ p).trans (congrArg (layer W.enc3) (r5 W feat p))

/-! ## The deepest decoder stage -/

theorem r9 : row (φ := .f32) (val_main_v9 (F := Ideal) feat W.inp W.enc1 W.enc2 W.enc3 W.lat3) p = layer W.lat3 (e3 W (row feat p)) := by
  unfold val_main_v9 val_main_v8 val_main_call4_v0 val_main_call4_cst
  rw [dot_128_128]
  exact (row_hlayer none .single _ W.lat3 _ p).trans (congrArg (layer W.lat3) (r7 W feat p))

theorem r10 : row (φ := .f32) (val_main_v10 (F := Ideal) feat W.inp W.enc1 W.enc2 W.enc3 W.lat3) p = c3 W (row feat p) := by
  unfold val_main_v10
  refine (row_concat _ _ concatenates_S500000x128_S500000x128_S500000x256_d1 rfl p).trans ?_
  rw [r7, r9]
  rfl

theorem r12 : row (φ := .f32) (val_main_v12 (F := Ideal) feat W.inp W.enc1 W.enc2 W.enc3 W.lat3 W.mrg3) p = layer W.mrg3 (c3 W (row feat p)) := by
  unfold val_main_v12 val_main_v11 val_main_call5_v0 val_main_call5_cst
  rw [dot_256_128]
  exact (row_hlayer none .single _ W.mrg3 _ p).trans (congrArg (layer W.mrg3) (r10 W feat p))

/-- The pairs of a row of 256 channels, summed onto zero. -/
theorem r14 : row (φ := .f32) (val_main_v14 (F := Ideal) feat W.inp W.enc1 W.enc2 W.enc3 W.lat3) p = pairSum (c3 W (row feat p)) := by
  funext q
  have hq := q.isLt
  show val_main_v14 (F := Ideal) feat W.inp W.enc1 W.enc2 W.enc3 W.lat3 (ix2 p q) = _
  rw [val_main_v14_apply, Fin.sum_univ_two, val_main_v13_apply, val_main_v13_apply]
  have h0 : idx_main_v13 (idx_main_v14 (ix2 p q) 0) = ix2 p (⟨2 * q.val, by omega⟩ : Fin 256) :=
    funext fun a => Fin.ext (by
      match a with
      | ⟨0, _⟩ => show ((p.val * 128 + q.val) * 2 + 0) / 256 = p.val; omega
      | ⟨1, _⟩ => show ((p.val * 128 + q.val) * 2 + 0) % 256 = 2 * q.val; omega)
  have h1 : idx_main_v13 (idx_main_v14 (ix2 p q) 1) = ix2 p (⟨2 * q.val + 1, by omega⟩ : Fin 256) :=
    funext fun a => Fin.ext (by
      match a with
      | ⟨0, _⟩ => show ((p.val * 128 + q.val) * 2 + 1) / 256 = p.val; omega
      | ⟨1, _⟩ => show ((p.val * 128 + q.val) * 2 + 1) % 256 = 2 * q.val + 1; omega)
  rw [h0, h1]
  have hr := r10 W feat p
  unfold pairSum
  rw [at0_of_lt _ _ (by omega), at0_of_lt _ _ (by omega), ← hr]
  show FloatOps.ofBits (F := Ideal) .f32 0x00000000#32 + _ = _
  rw [zero_word, zero_add]
  rfl

theorem r15 : row (φ := .f32) (val_main_v15 (F := Ideal) feat W.inp W.enc1 W.enc2 W.enc3 W.lat3 W.mrg3) p = pre W.mrg3 (c3 W (row feat p)) := by
  unfold val_main_v15
  rw [row_addf, r12, r14]
  rfl

theorem r17 : row (φ := .f32) (val_main_v17 (F := Ideal) feat W.inp W.enc1 W.enc2 W.enc3 W.lat3 W.mrg3 W.up3) p = d3 W (row feat p) := by
  unfold val_main_v17 val_main_v16 val_main_call6_v0 val_main_call6_cst
  rw [dot_128_64]
  exact (row_hlayer none .single _ W.up3 _ p).trans (congrArg (layer W.up3) (r15 W feat p))

/-! ## The middle decoder stage -/

theorem r19 : row (φ := .f32) (val_main_v19 (F := Ideal) feat W.inp W.enc1 W.enc2 W.lat2) p = layer W.lat2 (e2 W (row feat p)) := by
  unfold val_main_v19 val_main_v18 val_main_call7_v0 val_main_call7_cst
  rw [dot_64_64]
  exact (row_hlayer none .single _ W.lat2 _ p).trans (congrArg (layer W.lat2) (r5 W feat p))

theorem r20 : row (φ := .f32) (val_main_v20 (F := Ideal) feat W.inp W.enc1 W.enc2 W.enc3 W.lat2 W.lat3 W.mrg3 W.up3) p = c2 W (row feat p) := by
  unfold val_main_v20
  refine (row_concat _ _ concatenates_S500000x64_S500000x64_S500000x128_d1 rfl p).trans ?_
  rw [r17, r19]
  rfl

theorem r22 : row (φ := .f32) (val_main_v22 (F := Ideal) feat W.inp W.enc1 W.enc2 W.enc3 W.lat2 W.lat3 W.mrg2 W.mrg3 W.up3) p = layer W.mrg2 (c2 W (row feat p)) := by
  unfold val_main_v22 val_main_v21 val_main_call8_v0 val_main_call8_cst
  rw [dot_128_64]
  exact (row_hlayer none .single _ W.mrg2 _ p).trans (congrArg (layer W.mrg2) (r20 W feat p))

/-- The pairs of a row of 128 channels, summed onto zero. -/
theorem r24 : row (φ := .f32) (val_main_v24 (F := Ideal) feat W.inp W.enc1 W.enc2 W.enc3 W.lat2 W.lat3 W.mrg3 W.up3) p = pairSum (c2 W (row feat p)) := by
  funext q
  have hq := q.isLt
  show val_main_v24 (F := Ideal) feat W.inp W.enc1 W.enc2 W.enc3 W.lat2 W.lat3 W.mrg3 W.up3 (ix2 p q) = _
  rw [val_main_v24_apply, Fin.sum_univ_two, val_main_v23_apply, val_main_v23_apply]
  have h0 : idx_main_v23 (idx_main_v24 (ix2 p q) 0) = ix2 p (⟨2 * q.val, by omega⟩ : Fin 128) :=
    funext fun a => Fin.ext (by
      match a with
      | ⟨0, _⟩ => show ((p.val * 64 + q.val) * 2 + 0) / 128 = p.val; omega
      | ⟨1, _⟩ => show ((p.val * 64 + q.val) * 2 + 0) % 128 = 2 * q.val; omega)
  have h1 : idx_main_v23 (idx_main_v24 (ix2 p q) 1) = ix2 p (⟨2 * q.val + 1, by omega⟩ : Fin 128) :=
    funext fun a => Fin.ext (by
      match a with
      | ⟨0, _⟩ => show ((p.val * 64 + q.val) * 2 + 1) / 128 = p.val; omega
      | ⟨1, _⟩ => show ((p.val * 64 + q.val) * 2 + 1) % 128 = 2 * q.val + 1; omega)
  rw [h0, h1]
  have hr := r20 W feat p
  unfold pairSum
  rw [at0_of_lt _ _ (by omega), at0_of_lt _ _ (by omega), ← hr]
  show FloatOps.ofBits (F := Ideal) .f32 0x00000000#32 + _ = _
  rw [zero_word, zero_add]
  rfl

theorem r25 : row (φ := .f32) (val_main_v25 (F := Ideal) feat W.inp W.enc1 W.enc2 W.enc3 W.lat2 W.lat3 W.mrg2 W.mrg3 W.up3) p = pre W.mrg2 (c2 W (row feat p)) := by
  unfold val_main_v25
  rw [row_addf, r22, r24]
  rfl

theorem r27 : row (φ := .f32) (val_main_v27 (F := Ideal) feat W.inp W.enc1 W.enc2 W.enc3 W.lat2 W.lat3 W.mrg2 W.mrg3 W.up2 W.up3) p = d2 W (row feat p) := by
  unfold val_main_v27 val_main_v26 val_main_call9_v0 val_main_call9_cst
  rw [dot_64_32]
  exact (row_hlayer none .single _ W.up2 _ p).trans (congrArg (layer W.up2) (r25 W feat p))

/-! ## The last decoder stage -/

theorem r29 : row (φ := .f32) (val_main_v29 (F := Ideal) feat W.inp W.enc1 W.lat1) p = layer W.lat1 (e1 W (row feat p)) := by
  unfold val_main_v29 val_main_v28 val_main_call10_v0 val_main_call10_cst
  rw [dot_32_32]
  exact (row_hlayer none .single _ W.lat1 _ p).trans (congrArg (layer W.lat1) (r3 W feat p))

theorem r30 : row (φ := .f32) (val_main_v30 (F := Ideal) feat W.inp W.enc1 W.enc2 W.enc3 W.lat1 W.lat2 W.lat3 W.mrg2 W.mrg3 W.up2 W.up3) p = c1 W (row feat p) := by
  unfold val_main_v30
  refine (row_concat _ _ concatenates_S500000x32_S500000x32_S500000x64_d1 rfl p).trans ?_
  rw [r27, r29]
  rfl

theorem r32 : row (φ := .f32) (val_main_v32 (F := Ideal) feat W.inp W.enc1 W.enc2 W.enc3 W.lat1 W.lat2 W.lat3 W.mrg1 W.mrg2 W.mrg3 W.up2 W.up3) p = layer W.mrg1 (c1 W (row feat p)) := by
  unfold val_main_v32 val_main_v31 val_main_call11_v0 val_main_call11_cst
  rw [dot_64_32]
  exact (row_hlayer none .single _ W.mrg1 _ p).trans (congrArg (layer W.mrg1) (r30 W feat p))

/-- The pairs of a row of 64 channels, summed onto zero. -/
theorem r34 : row (φ := .f32) (val_main_v34 (F := Ideal) feat W.inp W.enc1 W.enc2 W.enc3 W.lat1 W.lat2 W.lat3 W.mrg2 W.mrg3 W.up2 W.up3) p = pairSum (c1 W (row feat p)) := by
  funext q
  have hq := q.isLt
  show val_main_v34 (F := Ideal) feat W.inp W.enc1 W.enc2 W.enc3 W.lat1 W.lat2 W.lat3 W.mrg2 W.mrg3 W.up2 W.up3 (ix2 p q) = _
  rw [val_main_v34_apply, Fin.sum_univ_two, val_main_v33_apply, val_main_v33_apply]
  have h0 : idx_main_v33 (idx_main_v34 (ix2 p q) 0) = ix2 p (⟨2 * q.val, by omega⟩ : Fin 64) :=
    funext fun a => Fin.ext (by
      match a with
      | ⟨0, _⟩ => show ((p.val * 32 + q.val) * 2 + 0) / 64 = p.val; omega
      | ⟨1, _⟩ => show ((p.val * 32 + q.val) * 2 + 0) % 64 = 2 * q.val; omega)
  have h1 : idx_main_v33 (idx_main_v34 (ix2 p q) 1) = ix2 p (⟨2 * q.val + 1, by omega⟩ : Fin 64) :=
    funext fun a => Fin.ext (by
      match a with
      | ⟨0, _⟩ => show ((p.val * 32 + q.val) * 2 + 1) / 64 = p.val; omega
      | ⟨1, _⟩ => show ((p.val * 32 + q.val) * 2 + 1) % 64 = 2 * q.val + 1; omega)
  rw [h0, h1]
  have hr := r30 W feat p
  unfold pairSum
  rw [at0_of_lt _ _ (by omega), at0_of_lt _ _ (by omega), ← hr]
  show FloatOps.ofBits (F := Ideal) .f32 0x00000000#32 + _ = _
  rw [zero_word, zero_add]
  rfl

theorem r35 : row (φ := .f32) (val_main_v35 (F := Ideal) feat W.inp W.enc1 W.enc2 W.enc3 W.lat1 W.lat2 W.lat3 W.mrg1 W.mrg2 W.mrg3 W.up2 W.up3) p = pre W.mrg1 (c1 W (row feat p)) := by
  unfold val_main_v35
  rw [row_addf, r32, r34]
  rfl

theorem r37 : row (φ := .f32) (val_main_v37 (F := Ideal) feat W.inp W.enc1 W.enc2 W.enc3 W.lat1 W.lat2 W.lat3 W.mrg1 W.mrg2 W.mrg3 W.up1 W.up2 W.up3) p = d1 W (row feat p) := by
  unfold val_main_v37 val_main_v36 val_main_call12_v0 val_main_call12_cst
  rw [dot_32_32]
  exact (row_hlayer none .single _ W.up1 _ p).trans (congrArg (layer W.up1) (r35 W feat p))

/-- The reference's whole result is the network's result array. -/
theorem result_eq : val_main_v37 (F := Ideal) feat W.inp W.enc1 W.enc2 W.enc3 W.lat1 W.lat2 W.lat3 W.mrg1 W.mrg2 W.mrg3 W.up1 W.up2 W.up3 = out W feat := by
  funext i
  obtain ⟨p, q, rfl⟩ : ∃ (p : Fin 500000) (q : Fin 32), i = ix2 p q := ⟨i 0, i 1, eq_ix2 i⟩
  exact congrFun (r37 W feat p) q

end Cert.ReferenceIdeal.Rows

end
-- ==== Proof.lean ====
/-
  The per-voxel network of a sparse encoder–decoder, computed two ways, gives one result at the ideal values.

  Both programs take 500000 voxels' feature rows (16 channels) and thirteen weight matrices, and apply to every row,
  independently, the same network: a stem and three encoder layers (a matrix product followed by the rectifier), then
  three decoder stages. A stage joins the row from below with the rectified lateral product of its level's encoder
  row, forms the rectified merge product of the joined row, adds to it the joined row's channels summed in
  neighbouring pairs, and sends the sum through the rectified up-sampling product (`Cert.Net`).

  The kernel runs over a grid of 250 points; point `t` holds rows `2000 t … 2000 t + 1999` of the features and all the
  weights, and writes the same rows of the result. It narrows every product's operands to a shorter float format, which
  changes nothing at the ideal values, and it sums neighbouring channels by a product with a `2 C × C` matrix of zeros
  and ones, entry `(j, k)` one exactly when `j / 2 = k`, which @main builds before the launch. The reference computes
  on the whole arrays, and sums neighbouring channels by laying a row of `2 C` channels out as `C` pairs and adding
  each pair onto zero.

  The two pairwise sums agree on the extended reals without any condition on the entries: in
  `∑ j, c j · [j / 2 = k]` every term with `j / 2 ≠ k` is `c j · 0 = 0` and the two others are `c j · 1 = c j`, whatever
  `c j` is, and `0 + (a + b) = a + b` (`Rows.lin_pair`). Everything else is the same operation on both sides, read one row
  at a time (`KernelRows`, `RefRows`); the kernel's blocks tile the result array (`KernelValue`). So the precondition is
  not used beyond the frames, and `preserves` has nothing to state: the idealized kernel is the kernel's own text.
-/
import proofs.«169520_j6889127543366_1_alg».proof.Defs
import proofs.«169520_j6889127543366_1_alg».proof.Proof.Gen.Kernel
import proofs.«169520_j6889127543366_1_alg».proof.Proof.Gen.Kernel.Skeleton
import proofs.«169520_j6889127543366_1_alg».proof.Proof.Gen.Kernel.Launch
import proofs.«169520_j6889127543366_1_alg».proof.Proof.Gen.Kernel.Points
import proofs.«169520_j6889127543366_1_alg».proof.Proof.Gen.Kernel.Frame
import proofs.«169520_j6889127543366_1_alg».proof.Proof.Gen.KernelIdeal
import proofs.«169520_j6889127543366_1_alg».proof.Proof.Gen.KernelIdeal.Skeleton
import proofs.«169520_j6889127543366_1_alg».proof.Proof.Gen.KernelIdeal.Launch
import proofs.«169520_j6889127543366_1_alg».proof.Proof.Gen.KernelIdeal.Points
import proofs.«169520_j6889127543366_1_alg».proof.Proof.Gen.KernelIdeal.Frame
import proofs.«169520_j6889127543366_1_alg».proof.Proof.Gen.ReferenceIdeal
import proofs.«169520_j6889127543366_1_alg».proof.Proof.Gen.Pre_finite_inputs
import proofs.«169520_j6889127543366_1_alg».proof.Proof.Gen.KernelIdeal.Value
import proofs.«169520_j6889127543366_1_alg».proof.Proof.Gen.ReferenceIdeal.Run
import proofs.«169520_j6889127543366_1_alg».proof.Proof.Gen.ReferenceIdeal.Read
import proofs.«169520_j6889127543366_1_alg».proof.Proof.KernelValue
import proofs.«169520_j6889127543366_1_alg».proof.Proof.RefRows
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, both programs end with the network's result array of those arguments:
    the kernel's blocks tile it, and the reference's last stage is it, row by row. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, _, a2, a3, a4, a5, a6, a7, a8, a9, a10, a11, a12, a13, a14⟩ := hagree c
  rw [Cert.ReferenceIdeal.Read.val_main_v37_eq, a0, a2, a3, a4, a5, a6, a7, a8, a9, a10, a11, a12, a13, a14]
  exact Cert.ReferenceIdeal.Rows.result_eq (Cert.KernelIdeal.Whole.Wm m c) _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
